-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x96 : Shape := ⟨2, ![50000, 96]⟩
abbrev S800000x96 : Shape := ⟨2, ![800000, 96]⟩
abbrev S2x800000 : Shape := ⟨2, ![2, 800000]⟩
abbrev S800000 : Shape := ⟨1, ![800000]⟩
abbrev S192x96 : Shape := ⟨2, ![192, 96]⟩
abbrev S_ : Shape := ⟨0, ![]⟩

class Facts : Prop where
  bcast_S_S50000x96 : S_.BroadcastsInDim S50000x96 (![] : Fin 0 → Fin S50000x96.rank)
  reducesTo_S50000x96_S_d0_1 : S50000x96.ReducesTo [0, 1] S_
  h_S_ : 0 < S_.numel
  bcast_S_S800000x96 : S_.BroadcastsInDim S800000x96 (![] : Fin 0 → Fin S800000x96.rank)
  reducesTo_S800000x96_S_d0_1 : S800000x96.ReducesTo [0, 1] S_
  bcast_S_S192x96 : S_.BroadcastsInDim S192x96 (![] : Fin 0 → Fin S192x96.rank)
  reducesTo_S192x96_S_d0_1 : S192x96.ReducesTo [0, 1] S_

variable [Facts]

def fn {F : FTy → Type} [FloatOps F] (main_arg0 : FVec F S50000x96 .f32) (main_arg1 : FVec F S800000x96 .f32) (main_arg2 : IVec S2x800000 32) (main_arg3 : IVec S800000 1) (main_arg4 : FVec F S192x96 .f32) : IVec S_ 1 :=
  let main_v0 : FVec F S50000x96 .f32 := Host.absf main_arg0
  let main_cst : FVec F S_ .f32 := constant S_ .f32 0x7F800000#32
  let main_v1 : FVec F S50000x96 .f32 := broadcastInDim S50000x96 ![] bcast_S_S50000x96 main_cst
  let main_v2 : IVec S50000x96 1 := cmpf .olt main_v0 main_v1
  let main_c : IVec S_ 1 := constantI S_ 1 1#1
  let main_v3 : IVec S_ 1 := (fun x v => Host.reduce IntOp.andi x v reducesTo_S50000x96_S_d0_1 h_S_) main_v2 main_c
  let main_v4 : FVec F S800000x96 .f32 := Host.absf main_arg1
  let main_cst_0 : FVec F S_ .f32 := constant S_ .f32 0x7F800000#32
  let main_v5 : FVec F S800000x96 .f32 := broadcastInDim S800000x96 ![] bcast_S_S800000x96 main_cst_0
  let main_v6 : IVec S800000x96 1 := cmpf .olt main_v4 main_v5
  let main_c_1 : IVec S_ 1 := constantI S_ 1 1#1
  let main_v7 : IVec S_ 1 := (fun x v => Host.reduce IntOp.andi x v reducesTo_S800000x96_S_d0_1 h_S_) main_v6 main_c_1
  let main_v8 : IVec S_ 1 := andi main_v3 main_v7
  let main_v9 : FVec F S192x96 .f32 := Host.absf main_arg4
  let main_cst_2 : FVec F S_ .f32 := constant S_ .f32 0x7F800000#32
  let main_v10 : FVec F S192x96 .f32 := broadcastInDim S192x96 ![] bcast_S_S192x96 main_cst_2
  let main_v11 : IVec S192x96 1 := cmpf .olt main_v9 main_v10
  let main_c_3 : IVec S_ 1 := constantI S_ 1 1#1
  let main_v12 : IVec S_ 1 := (fun x v => Host.reduce IntOp.andi x v reducesTo_S192x96_S_d0_1 h_S_) main_v11 main_c_3
  let main_v13 : IVec S_ 1 := andi main_v8 main_v12
  main_v13
-- ==== Kernel.lean ====
abbrev S50000x96 : Shape := ⟨2, ![50000, 96]⟩
abbrev S800000x96 : Shape := ⟨2, ![800000, 96]⟩
abbrev S2x800000 : Shape := ⟨2, ![2, 800000]⟩
abbrev S800000 : Shape := ⟨1, ![800000]⟩
abbrev S192x96 : Shape := ⟨2, ![192, 96]⟩
abbrev S1x800000 : Shape := ⟨2, ![1, 800000]⟩
abbrev S_ : Shape := ⟨0, ![]⟩
abbrev S800000x1 : Shape := ⟨2, ![800000, 1]⟩
abbrev S50001x96 : Shape := ⟨2, ![50001, 96]⟩
abbrev S96x96 : Shape := ⟨2, ![96, 96]⟩
abbrev S2000x96 : Shape := ⟨2, ![2000, 96]⟩

abbrev nBuf : Space → Nat
  | .hbm => 35
  | .vmem => 8
  | .smem => 0
  | _ => 0

abbrev bufTy : (tb : Table) → Fin (tcTables nBuf tb) → BufTy
  | .hbm, ⟨0, _⟩ => ⟨S50000x96, .f32⟩
  | .hbm, ⟨1, _⟩ => ⟨S800000x96, .f32⟩
  | .hbm, ⟨2, _⟩ => ⟨S2x800000, .i32⟩
  | .hbm, ⟨3, _⟩ => ⟨S800000, .i1⟩
  | .hbm, ⟨4, _⟩ => ⟨S192x96, .f32⟩
  | .hbm, ⟨5, _⟩ => ⟨S1x800000, .i32⟩
  | .hbm, ⟨6, _⟩ => ⟨S800000, .i32⟩
  | .hbm, ⟨7, _⟩ => ⟨S1x800000, .i32⟩
  | .hbm, ⟨8, _⟩ => ⟨S800000, .i32⟩
  | .hbm, ⟨9, _⟩ => ⟨S50000x96, .bf16⟩
  | .hbm, ⟨10, _⟩ => ⟨S_, .i32⟩
  | .hbm, ⟨11, _⟩ => ⟨S800000, .i32⟩
  | .hbm, ⟨12, _⟩ => ⟨S800000, .i1⟩
  | .hbm, ⟨13, _⟩ => ⟨S_, .i32⟩
  | .hbm, ⟨14, _⟩ => ⟨S800000, .i32⟩
  | .hbm, ⟨15, _⟩ => ⟨S800000, .i32⟩
  | .hbm, ⟨16, _⟩ => ⟨S800000, .i32⟩
  | .hbm, ⟨17, _⟩ => ⟨S800000x1, .i32⟩
  | .hbm, ⟨18, _⟩ => ⟨S800000x96, .bf16⟩
  | .hbm, ⟨19, _⟩ => ⟨S800000x96, .f32⟩
  | .hbm, ⟨20, _⟩ => ⟨S_, .i32⟩
  | .hbm, ⟨21, _⟩ => ⟨S_, .i32⟩
  | .hbm, ⟨22, _⟩ => ⟨S800000, .i32⟩
  | .hbm, ⟨23, _⟩ => ⟨S800000, .i32⟩
  | .hbm, ⟨24, _⟩ => ⟨S_, .f32⟩
  | .hbm, ⟨25, _⟩ => ⟨S50001x96, .f32⟩
  | .hbm, ⟨26, _⟩ => ⟨S800000x1, .i32⟩
  | .hbm, ⟨27, _⟩ => ⟨S50001x96, .f32⟩
  | .hbm, ⟨28, _⟩ => ⟨S_, .f32⟩
  | .hbm, ⟨29, _⟩ => ⟨S50001x96, .f32⟩
  | .hbm, ⟨30, _⟩ => ⟨S800000x1, .i32⟩
  | .hbm, ⟨31, _⟩ => ⟨S50001x96, .f32⟩
  | .hbm, ⟨32, _⟩ => ⟨S96x96, .f32⟩
  | .hbm, ⟨33, _⟩ => ⟨S96x96, .f32⟩
  | .hbm, ⟨34, _⟩ => ⟨S50000x96, .f32⟩
  | .local _ .vmem, ⟨0, _⟩ => ⟨S2000x96, .f32⟩
  | .local _ .vmem, ⟨1, _⟩ => ⟨S2000x96, .f32⟩
  | .local _ .vmem, ⟨2, _⟩ => ⟨S2000x96, .f32⟩
  | .local _ .vmem, ⟨3, _⟩ => ⟨S2000x96, .f32⟩
  | .local _ .vmem, ⟨4, _⟩ => ⟨S96x96, .f32⟩
  | .local _ .vmem, ⟨5, _⟩ => ⟨S96x96, .f32⟩
  | .local _ .vmem, ⟨6, _⟩ => ⟨S2000x96, .f32⟩
  | .local _ .vmem, ⟨7, _⟩ => ⟨S2000x96, .f32⟩
  | _, _ => ⟨S50000x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c_1 : Ref sig .tc := ⟨.hbm, 20, rfl⟩
abbrev main_call0_v0 : Ref sig .tc := ⟨.hbm, 21, rfl⟩
abbrev main_call0_v1 : Ref sig .tc := ⟨.hbm, 22, rfl⟩
abbrev main_v13 : Ref sig .tc := ⟨.hbm, 23, rfl⟩
abbrev main_cst : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x96 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S96x96 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S96x96 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2000x96 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bitsLt_bf16_f32 : FTy.bits .bf16 < FTy.bits .f32
  bcast_S_S800000 : S_.BroadcastsInDim S800000 (![] : Fin 0 → Fin S800000.rank)
  bcast_S800000_S800000x1_0 : S800000.BroadcastsInDim S800000x1 (![0] : Fin 1 → Fin S800000x1.rank)
  bcast_S_S50001x96 : S_.BroadcastsInDim S50001x96 (![] : Fin 0 → Fin S50001x96.rank)
  slices_S192x96_S96x96_0_0 : S192x96.Slices ![0, 0] S96x96
  slices_S192x96_S96x96_96_0 : S192x96.Slices ![96, 0] S96x96
  inb_S2000x96_S2000x96_0_0 : ∀ a, (![0, 0] : Fin 2 → Nat) a + S2000x96.size a ≤ S2000x96.size a
  h_S2000x96 : 0 < S2000x96.numel
  shapeCasts_S2000x96_S2000x96 : S2000x96.ShapeCasts S2000x96
  inb_S96x96_S96x96_0_0 : ∀ a, (![0, 0] : Fin 2 → Nat) a + S96x96.size a ≤ S96x96.size a
  h_S96x96 : 0 < S96x96.numel
  shapeCasts_S96x96_S96x96 : S96x96.ShapeCasts S96x96
  gather_S50000x96_S800000x1_S800000x96_1_0_n_n_0_1_196_wf : GatherDims.WF S50000x96 S800000x1 S800000x96 [1] [0] [] [0] [] 1 ![1, 96]
  scatter_S50001x96_S800000x1_S800000x96_1_0_0_1_wf : ScatterDims.WF S50001x96 S800000x1 S800000x96 [1] [0] [0] 1
  dot_S2000x96_S96x96_S2000x96_1_0_0_1_n_n_wf : DotDims.WF S2000x96 S96x96 S2000x96 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S2000x96.size a < S50001x96.size a
  hwx0_0 : ∀ i : grid0.Coords, EltTy.bits .f32 = 32 ∨ (Rect.unit (s := S50001x96) (fun a => cc0_transform_0 i a * S2000x96.size a) (fun a => (Pipeline.Clip.of (cc0_transform_0 i a) (S2000x96.size a) (S50001x96.size a)).extent (S2000x96.size a)) fun a => Pipeline.Clip.inb (Pipeline.Clip.ok_of (hstart0_0 i a))).WholeWords (EltTy.packing .f32)
  hwxs0_0 : ∀ i : grid0.Coords, EltTy.bits .f32 = 32 ∨ (Rect.unit (s := S2000x96) (fun _ => 0) (fun a => (Pipeline.Clip.of (cc0_transform_0 i a) (S2000x96.size a) (S50001x96.size a)).extent (S2000x96.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S2000x96.size a < S50001x96.size a
  hwx0_1 : ∀ i : grid0.Coords, EltTy.bits .f32 = 32 ∨ (Rect.unit (s := S50001x96) (fun a => cc0_transform_1 i a * S2000x96.size a) (fun a => (Pipeline.Clip.of (cc0_transform_1 i a) (S2000x96.size a) (S50001x96.size a)).extent (S2000x96.size a)) fun a => Pipeline.Clip.inb (Pipeline.Clip.ok_of (hstart0_1 i a))).WholeWords (EltTy.packing .f32)
  hwxs0_1 : ∀ i : grid0.Coords, EltTy.bits .f32 = 32 ∨ (Rect.unit (s := S2000x96) (fun _ => 0) (fun a => (Pipeline.Clip.of (cc0_transform_1 i a) (S2000x96.size a) (S50001x96.size a)).extent (S2000x96.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S96x96.size a ≤ S96x96.size a
  hwx0_2 : ∀ i : grid0.Coords, EltTy.bits .f32 = 32 ∨ (Rect.block (s := S96x96) S96x96.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S96x96.size a ≤ S96x96.size a
  hwx0_3 : ∀ i : grid0.Coords, EltTy.bits .f32 = 32 ∨ (Rect.block (s := S96x96) S96x96.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x96.size a ≤ S50000x96.size a
  hwx0_4 : ∀ i : grid0.Coords, EltTy.bits .f32 = 32 ∨ (Rect.block (s := S50000x96) S2000x96.size (cc0_transform_4 i) (hinb0_4 i)).WholeWords (EltTy.packing .f32)

variable [Facts₀]

def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50001x96_S800000x1_S800000x96_1_0_0_1 : ScatterDims S50001x96 S800000x1 S800000x96 where
  updateWindowDims := [1]
  insertedWindowDims := [0]
  scatterDimsToOperandDims := [0]
  indexVectorDim := 1
  wf := scatter_S50001x96_S800000x1_S800000x96_1_0_0_1_wf
def dot_S2000x96_S96x96_S2000x96_1_0_0_1_n_n : DotDims S2000x96 S96x96 S2000x96 where
  lhsContracting := [1]
  rhsContracting := [0]
  lhsNonContracting := [0]
  rhsNonContracting := [1]
  lhsBatch := []
  rhsBatch := []
  wf := dot_S2000x96_S96x96_S2000x96_1_0_0_1_n_n_wf

abbrev win0_0 : Pipeline.Window sig grid0 :=
  Pipeline.Window.ofSpecClip (Memref.whole main_v16) S2000x96.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_v19) S2000x96.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpec (Memref.whole main_v20) S96x96.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v21) S96x96.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v22) S2000x96.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S50000x96 : Shape := ⟨2, ![50000, 96]⟩
abbrev S800000x96 : Shape := ⟨2, ![800000, 96]⟩
abbrev S2x800000 : Shape := ⟨2, ![2, 800000]⟩
abbrev S800000 : Shape := ⟨1, ![800000]⟩
abbrev S192x96 : Shape := ⟨2, ![192, 96]⟩
abbrev S1x800000 : Shape := ⟨2, ![1, 800000]⟩
abbrev S_ : Shape := ⟨0, ![]⟩
abbrev S800000x1 : Shape := ⟨2, ![800000, 1]⟩
abbrev S800000x192 : Shape := ⟨2, ![800000, 192]⟩

abbrev nBuf : Space → Nat
  | .hbm => 28
  | .vmem => 0
  | .smem => 0
  | _ => 0

abbrev bufTy : (tb : Table) → Fin (tcTables nBuf tb) → BufTy
  | .hbm, ⟨0, _⟩ => ⟨S50000x96, .f32⟩
  | .hbm, ⟨1, _⟩ => ⟨S800000x96, .f32⟩
  | .hbm, ⟨2, _⟩ => ⟨S2x800000, .i32⟩
  | .hbm, ⟨3, _⟩ => ⟨S800000, .i1⟩
  | .hbm, ⟨4, _⟩ => ⟨S192x96, .f32⟩
  | .hbm, ⟨5, _⟩ => ⟨S1x800000, .i32⟩
  | .hbm, ⟨6, _⟩ => ⟨S800000, .i32⟩
  | .hbm, ⟨7, _⟩ => ⟨S1x800000, .i32⟩
  | .hbm, ⟨8, _⟩ => ⟨S800000, .i32⟩
  | .hbm, ⟨9, _⟩ => ⟨S_, .i32⟩
  | .hbm, ⟨10, _⟩ => ⟨S800000, .i32⟩
  | .hbm, ⟨11, _⟩ => ⟨S800000, .i1⟩
  | .hbm, ⟨12, _⟩ => ⟨S_, .i32⟩
  | .hbm, ⟨13, _⟩ => ⟨S800000, .i32⟩
  | .hbm, ⟨14, _⟩ => ⟨S800000, .i32⟩
  | .hbm, ⟨15, _⟩ => ⟨S800000, .i32⟩
  | .hbm, ⟨16, _⟩ => ⟨S800000x1, .i32⟩
  | .hbm, ⟨17, _⟩ => ⟨S800000x96, .f32⟩
  | .hbm, ⟨18, _⟩ => ⟨S800000x192, .f32⟩
  | .hbm, ⟨19, _⟩ => ⟨S800000x96, .f32⟩
  | .hbm, ⟨20, _⟩ => ⟨S800000x1, .i1⟩
  | .hbm, ⟨21, _⟩ => ⟨S800000x1, .f32⟩
  | .hbm, ⟨22, _⟩ => ⟨S800000x96, .f32⟩
  | .hbm, ⟨23, _⟩ => ⟨S800000x96, .f32⟩
  | .hbm, ⟨24, _⟩ => ⟨S_, .f32⟩
  | .hbm, ⟨25, _⟩ => ⟨S50000x96, .f32⟩
  | .hbm, ⟨26, _⟩ => ⟨S800000x1, .i32⟩
  | .hbm, ⟨27, _⟩ => ⟨S50000x96, .f32⟩
  | _, _ => ⟨S50000x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  concatenates_S800000x96_S800000x96_S800000x192_d1 : Shape.Concatenates [S800000x96, S800000x96] S800000x192 1
  bcast_S800000x1_S800000x96_0_1 : S800000x1.BroadcastsInDim S800000x96 (![0, 1] : Fin 2 → Fin S800000x96.rank)
  bcast_S_S50000x96 : S_.BroadcastsInDim S50000x96 (![] : Fin 0 → Fin S50000x96.rank)
  gather_S50000x96_S800000x1_S800000x96_1_0_n_n_0_1_196_wf : GatherDims.WF S50000x96 S800000x1 S800000x96 [1] [0] [] [0] [] 1 ![1, 96]
  dot_S800000x192_S192x96_S800000x96_1_0_0_1_n_n_wf : DotDims.WF S800000x192 S192x96 S800000x96 [1] [0] [0] [1] [] []
  scatter_S50000x96_S800000x1_S800000x96_1_0_0_1_wf : ScatterDims.WF S50000x96 S800000x1 S800000x96 [1] [0] [0] 1

variable [Facts₀]

def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def dot_S800000x192_S192x96_S800000x96_1_0_0_1_n_n : DotDims S800000x192 S192x96 S800000x96 where
  lhsContracting := [1]
  rhsContracting := [0]
  lhsNonContracting := [0]
  rhsNonContracting := [1]
  lhsBatch := []
  rhsBatch := []
  wf := dot_S800000x192_S192x96_S800000x96_1_0_0_1_n_n_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf

class Facts : Prop extends Facts₀ where

variable [Facts]
-- ==== Proof.BodyBits.lean ====
/-
  The projection kernel's run, point by point. At grid point t the pipeline hands the body five staging
  buffers: rows [2000 t, 2000 t + 2000) of the two aggregated arrays (50001 rows each, the last a sink row no
  point reaches), the two 96 x 96 halves of the weight matrix, and the result's buffer. The body loads the four
  inputs whole, multiplies each aggregate block into its weight half from a zero accumulator, adds the two
  products, and stores the sum over the whole result buffer; it also loads the result buffer once, a value
  nothing uses.

  The two aggregate windows do not tile their 50001-row arrays, so the pipeline treats their transfers as cut
  at the array's end; but 25 blocks of 2000 rows end at row 50000, inside the array, so no transfer is in fact
  cut (clip_agg) and a fetched buffer holds exactly its block, whatever it held before (before0_0, before0_1).
  After the body at point t the result's buffer holds the sum of the two products of the point's blocks
  (outBlock); the frame run then has the result array at what the 25 write-backs leave (run_main).
-/
import proofs.«425643_j19731079758632_3_alg».proof.Proof.Gen.Kernel.Frame
import proofs.«425643_j19731079758632_3_alg».proof.Proof.Gen.Kernel.Skeleton

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## No transfer of the aggregate windows is cut -/

/-- Block t of 2000 rows ends at row 2000 (t + 1) ≤ 50000 < 50001, and the 96 columns are the array's: on
    neither axis does a block of the two aggregate windows reach past its array. -/
theorem clip_agg0 (i : grid0.Coords) (a : Fin 2) : win0_0.clip i a = none := by
  have hi : (i 0).val < 25 := (i 0).isLt
  show Pipeline.Clip.of (cc0_transform_0 i a) (S2000x96.size a) (S50001x96.size a) = none
  unfold Pipeline.Clip.of
  match a with
  | ⟨0, _⟩ =>
    have e : cc0_transform_0 i ⟨0, by decide⟩ = (i 0).val := by
      show (BitVec.ofNat 32 (i 0).val).toNat = (i 0).val
      rw [BitVec.toNat_ofNat]; exact Nat.mod_eq_of_lt (by omega)
    rw [e]; exact if_pos (show ((i 0).val + 1) * 2000 ≤ 50001 by omega)
  | ⟨1, _⟩ => rfl

theorem clip_agg1 (i : grid0.Coords) (a : Fin 2) : win0_1.clip i a = none := by
  have hi : (i 0).val < 25 := (i 0).isLt
  show Pipeline.Clip.of (cc0_transform_1 i a) (S2000x96.size a) (S50001x96.size a) = none
  unfold Pipeline.Clip.of
  match a with
  | ⟨0, _⟩ =>
    have e : cc0_transform_1 i ⟨0, by decide⟩ = (i 0).val := by
      show (BitVec.ofNat 32 (i 0).val).toNat = (i 0).val
      rw [BitVec.toNat_ofNat]; exact Nat.mod_eq_of_lt (by omega)
    rw [e]; exact if_pos (show ((i 0).val + 1) * 2000 ≤ 50001 by omega)
  | ⟨1, _⟩ => rfl

/-! ## The blocks the body reads -/

/-- The block of the first aggregate at point t as its staging buffer holds it: all 2000 rows are fetched, so the
    filler (zero words) is read nowhere. -/
def aggBlock0 (c : Dev nD) (t : Fin cfg0.N) : Vec F S2000x96 .f32 :=
  win0_0.fill (grid0.coords t) (fun _ => Scalar.ofBits .f32 0#32) (iblk m c 0 t)
/-- The block of the second aggregate, likewise. -/
def aggBlock1 (c : Dev nD) (t : Fin cfg0.N) : Vec F S2000x96 .f32 :=
  win0_1.fill (grid0.coords t) (fun _ => Scalar.ofBits .f32 0#32) (iblk m c 1 t)

/-! ## The body's accesses and what it leaves in the result's buffer -/

abbrev rBlk : Rect S2000x96 := Rect.unit (s := S2000x96) ![0, 0] S2000x96.size inb_S2000x96_S2000x96_0_0
abbrev rW : Rect S96x96 := Rect.unit (s := S96x96) ![0, 0] S96x96.size inb_S96x96_S96x96_0_0

/-- The result's staging buffer after the body, from the four input buffers' contents: its one whole store, of
    the sum of the two products. -/
def outBlock (x0 x1 : Vec F S2000x96 .f32) (x2 x3 : Vec F S96x96 .f32) : Vec F S2000x96 .f32 :=
  View.canon [⟨rBlk, k0_pay1 (View.ld x0 rBlk) (View.ld x1 rBlk) (View.ld x2 rW) (View.ld x3 rW)⟩]

/-- The one store covers the buffer. -/
theorem cover_out (p0 : Vec F S2000x96 .f32) (y : S2000x96.Idx) :
    ∃ pc ∈ ([⟨rBlk, p0⟩] : List (View.Piece (Elt F) S2000x96 .f32)), y ∈ pc.1.set :=
  View.cover_of_tiled [⟨rBlk, p0⟩] S2000x96.size (by rfl) y

/-! ## The body's triple -/

set_option maxHeartbeats 1000000 in
/-- The body on whole staging memrefs, the four inputs' at contents x0 … x3 and the result's at anything: it runs
    to the continuation holding the inputs' as they were and the result's at outBlock of them. -/
theorem sound_kernel (c : Dev nD) (E : Set ℕ) (i : grid0.Coords)
    (arg1 : Memref sig .tc .vmem S2000x96 .f32) (harg1 : arg1.IsWhole) (arg2 : Memref sig .tc .vmem S2000x96 .f32) (harg2 : arg2.IsWhole)
    (arg3 : Memref sig .tc .vmem S96x96 .f32) (harg3 : arg3.IsWhole) (arg4 : Memref sig .tc .vmem S96x96 .f32) (harg4 : arg4.IsWhole)
    (arg5 : Memref sig .tc .vmem S2000x96 .f32) (harg5 : arg5.IsWhole)
    (x0 x1 : Vec F S2000x96 .f32) (x2 x3 : Vec F S96x96 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (outBlock x0 x1 x2 x3)) -∗ K ⟨⟩))
      ⊢ wp frame (wpE (defs₀ (F := F)) Variants.none c none) E
          (cc0__project_kernel i arg1 harg1 arg2 harg2 arg3 harg3 arg4 harg4 arg5 harg5) K := by
  simp only [cc0__project_kernel_eq_skeleton]; unfold cc0__project_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover_out _)

/-! ## The pipeline's proof data -/

/-- The proof data of the one pipeline on core c: the arrays as the region finds them; after the body at point t
    each input's buffer at its block and the result's at outBlock of the four; the invariant the scoped rest and
    the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => aggBlock0 m c t
    | ⟨1, _⟩ => aggBlock1 m c t
    | ⟨2, _⟩ => iblk m c 2 t
    | ⟨3, _⟩ => iblk m c 3 t
    | ⟨4, _⟩ => outBlock (aggBlock0 m c t) (aggBlock1 m c t) (iblk m c 2 t) (iblk m c 3 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = aggBlock0 m c t := by dsimp only [dats]
theorem after0_1 (c : Dev nD) (t : Fin cfg0.N) : (dats m 0 c).after 1 t = aggBlock1 m c t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) :
    (dats m 0 c).after 4 t = outBlock (aggBlock0 m c t) (aggBlock1 m c t) (iblk m c 2 t) (iblk m c 3 t) := by dsimp only [dats]

/-- An aggregate window is fetched at every point, and the fetch fills the whole buffer: it holds the block. -/
theorem before0_0 (c : Dev nD) (t : Fin cfg0.N) (d) : (dats m 0 c).before 0 t d = aggBlock0 m c t := by
  rw [(dats m 0 c).before_fetched 0 t (fetch0_0 t)]
  unfold Dat.fetched Dat.blockOf aggBlock0 iblk
  rw [A_eq]
  exact Pipeline.fill_of_clip_none (cfg := cfg0) 0 _ (clip_agg0 _) _ _ _
theorem before0_1 (c : Dev nD) (t : Fin cfg0.N) (d) : (dats m 0 c).before 1 t d = aggBlock1 m c t := by
  rw [(dats m 0 c).before_fetched 1 t (fetch0_1 t)]
  unfold Dat.fetched Dat.blockOf aggBlock1 iblk
  rw [A_eq]
  exact Pipeline.fill_of_clip_none (cfg := cfg0) 1 _ (clip_agg1 _) _ _ _
/-- A weight half is fetched once and kept: its buffer holds the block at every point. -/
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation -/

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns: the aggregate windows' buffers stated on the rows their transfers move, the others whole. -/
def bodyPost (c : Dev nD) (t : Fin cfg0.N) : sProp 𝕄 :=
  iprop((dats m 0 c).Φ t.succ ∗ (dats m 0 c).owesAt () t.succ
    ∗ (∃ d, owns (c : Thread nD τ) (st0_0 t) fullShare
        (win0_0.fill (grid0.coords t) d (win0_0.cut (grid0.coords t) ((dats m 0 c).after 0 t))))
    ∗ (∃ d, owns (c : Thread nD τ) (st0_1 t) fullShare
        (win0_1.fill (grid0.coords t) d (win0_1.cut (grid0.coords t) ((dats m 0 c).after 1 t))))
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- At every point: the four inputs' buffers hold their blocks, so sound_kernel applies; the invariant and what
    the core owes pass through unread; the aggregate windows' buffers are handed back holding the same blocks,
    which is what is asked of them on the rows their transfers move (all of them). -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel (F := F) c Set.univ _ _ _ _ _ _ _ _ _ _ _
    (aggBlock0 m c t) (aggBlock1 m c t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]
  · iexists aggBlock0 m c t
    rw [Window.fill_cut]; iexact H0
  isplitl [H1]
  · iexists aggBlock1 m c t
    rw [Window.fill_cut]; iexact H1
  isplitl [H2]; · iexact H2
  isplitl [H3]; · iexact H3
  iexact H4

/-- The pipeline's body obligation, at every point. -/
theorem body_obligation (c : Dev nD) : BodyObligationLoose (dats (F := F) m 0 c) (defs₀ (F := F)) Variants.none () Set.univ := fun t => by
  rw [bigSep_W0, bigSep_W0]
  exact sound_body m c t

/-! ## The run -/

set_option backward.isDefEq.respectTransparency.types false in
/-- At the compiled mesh, for any values, from any memory with zero counters: every weakly fair execution of the
    program terminates, and every final state has each array of the pipeline at what the write-backs leave and
    every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hΦ := fun _ _ => rfl)

/-- The argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.Kernel.Body

end
-- ==== Proof.BodyIdeal.lean ====
/-
  The projection kernel's run, point by point. At grid point t the pipeline hands the body five staging
  buffers: rows [2000 t, 2000 t + 2000) of the two aggregated arrays (50001 rows each, the last a sink row no
  point reaches), the two 96 x 96 halves of the weight matrix, and the result's buffer. The body loads the four
  inputs whole, multiplies each aggregate block into its weight half from a zero accumulator, adds the two
  products, and stores the sum over the whole result buffer; it also loads the result buffer once, a value
  nothing uses.

  The two aggregate windows do not tile their 50001-row arrays, so the pipeline treats their transfers as cut
  at the array's end; but 25 blocks of 2000 rows end at row 50000, inside the array, so no transfer is in fact
  cut (clip_agg) and a fetched buffer holds exactly its block, whatever it held before (before0_0, before0_1).
  After the body at point t the result's buffer holds the sum of the two products of the point's blocks
  (outBlock); the frame run then has the result array at what the 25 write-backs leave (run_main).
-/
import proofs.«425643_j19731079758632_3_alg».proof.Proof.Gen.KernelIdeal.Frame
import proofs.«425643_j19731079758632_3_alg».proof.Proof.Gen.KernelIdeal.Skeleton

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## No transfer of the aggregate windows is cut -/

/-- Block t of 2000 rows ends at row 2000 (t + 1) ≤ 50000 < 50001, and the 96 columns are the array's: on
    neither axis does a block of the two aggregate windows reach past its array. -/
theorem clip_agg0 (i : grid0.Coords) (a : Fin 2) : win0_0.clip i a = none := by
  have hi : (i 0).val < 25 := (i 0).isLt
  show Pipeline.Clip.of (cc0_transform_0 i a) (S2000x96.size a) (S50001x96.size a) = none
  unfold Pipeline.Clip.of
  match a with
  | ⟨0, _⟩ =>
    have e : cc0_transform_0 i ⟨0, by decide⟩ = (i 0).val := by
      show (BitVec.ofNat 32 (i 0).val).toNat = (i 0).val
      rw [BitVec.toNat_ofNat]; exact Nat.mod_eq_of_lt (by omega)
    rw [e]; exact if_pos (show ((i 0).val + 1) * 2000 ≤ 50001 by omega)
  | ⟨1, _⟩ => rfl

theorem clip_agg1 (i : grid0.Coords) (a : Fin 2) : win0_1.clip i a = none := by
  have hi : (i 0).val < 25 := (i 0).isLt
  show Pipeline.Clip.of (cc0_transform_1 i a) (S2000x96.size a) (S50001x96.size a) = none
  unfold Pipeline.Clip.of
  match a with
  | ⟨0, _⟩ =>
    have e : cc0_transform_1 i ⟨0, by decide⟩ = (i 0).val := by
      show (BitVec.ofNat 32 (i 0).val).toNat = (i 0).val
      rw [BitVec.toNat_ofNat]; exact Nat.mod_eq_of_lt (by omega)
    rw [e]; exact if_pos (show ((i 0).val + 1) * 2000 ≤ 50001 by omega)
  | ⟨1, _⟩ => rfl

/-! ## The blocks the body reads -/

/-- The block of the first aggregate at point t as its staging buffer holds it: all 2000 rows are fetched, so the
    filler (zero words) is read nowhere. -/
def aggBlock0 (c : Dev nD) (t : Fin cfg0.N) : Vec F S2000x96 .f32 :=
  win0_0.fill (grid0.coords t) (fun _ => Scalar.ofBits .f32 0#32) (iblk m c 0 t)
/-- The block of the second aggregate, likewise. -/
def aggBlock1 (c : Dev nD) (t : Fin cfg0.N) : Vec F S2000x96 .f32 :=
  win0_1.fill (grid0.coords t) (fun _ => Scalar.ofBits .f32 0#32) (iblk m c 1 t)

/-! ## The body's accesses and what it leaves in the result's buffer -/

abbrev rBlk : Rect S2000x96 := Rect.unit (s := S2000x96) ![0, 0] S2000x96.size inb_S2000x96_S2000x96_0_0
abbrev rW : Rect S96x96 := Rect.unit (s := S96x96) ![0, 0] S96x96.size inb_S96x96_S96x96_0_0

/-- The result's staging buffer after the body, from the four input buffers' contents: its one whole store, of
    the sum of the two products. -/
def outBlock (x0 x1 : Vec F S2000x96 .f32) (x2 x3 : Vec F S96x96 .f32) : Vec F S2000x96 .f32 :=
  View.canon [⟨rBlk, k0_pay1 (View.ld x0 rBlk) (View.ld x1 rBlk) (View.ld x2 rW) (View.ld x3 rW)⟩]

/-- The one store covers the buffer. -/
theorem cover_out (p0 : Vec F S2000x96 .f32) (y : S2000x96.Idx) :
    ∃ pc ∈ ([⟨rBlk, p0⟩] : List (View.Piece (Elt F) S2000x96 .f32)), y ∈ pc.1.set :=
  View.cover_of_tiled [⟨rBlk, p0⟩] S2000x96.size (by rfl) y

/-! ## The body's triple -/

set_option maxHeartbeats 1000000 in
/-- The body on whole staging memrefs, the four inputs' at contents x0 … x3 and the result's at anything: it runs
    to the continuation holding the inputs' as they were and the result's at outBlock of them. -/
theorem sound_kernel (c : Dev nD) (E : Set ℕ) (i : grid0.Coords)
    (arg1 : Memref sig .tc .vmem S2000x96 .f32) (harg1 : arg1.IsWhole) (arg2 : Memref sig .tc .vmem S2000x96 .f32) (harg2 : arg2.IsWhole)
    (arg3 : Memref sig .tc .vmem S96x96 .f32) (harg3 : arg3.IsWhole) (arg4 : Memref sig .tc .vmem S96x96 .f32) (harg4 : arg4.IsWhole)
    (arg5 : Memref sig .tc .vmem S2000x96 .f32) (harg5 : arg5.IsWhole)
    (x0 x1 : Vec F S2000x96 .f32) (x2 x3 : Vec F S96x96 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (outBlock x0 x1 x2 x3)) -∗ K ⟨⟩))
      ⊢ wp frame (wpE (defs₀ (F := F)) Variants.none c none) E
          (cc0__project_kernel i arg1 harg1 arg2 harg2 arg3 harg3 arg4 harg4 arg5 harg5) K := by
  simp only [cc0__project_kernel_eq_skeleton]; unfold cc0__project_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover_out _)

/-! ## The pipeline's proof data -/

/-- The proof data of the one pipeline on core c: the arrays as the region finds them; after the body at point t
    each input's buffer at its block and the result's at outBlock of the four; the invariant the scoped rest and
    the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => aggBlock0 m c t
    | ⟨1, _⟩ => aggBlock1 m c t
    | ⟨2, _⟩ => iblk m c 2 t
    | ⟨3, _⟩ => iblk m c 3 t
    | ⟨4, _⟩ => outBlock (aggBlock0 m c t) (aggBlock1 m c t) (iblk m c 2 t) (iblk m c 3 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = aggBlock0 m c t := by dsimp only [dats]
theorem after0_1 (c : Dev nD) (t : Fin cfg0.N) : (dats m 0 c).after 1 t = aggBlock1 m c t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) :
    (dats m 0 c).after 4 t = outBlock (aggBlock0 m c t) (aggBlock1 m c t) (iblk m c 2 t) (iblk m c 3 t) := by dsimp only [dats]

/-- An aggregate window is fetched at every point, and the fetch fills the whole buffer: it holds the block. -/
theorem before0_0 (c : Dev nD) (t : Fin cfg0.N) (d) : (dats m 0 c).before 0 t d = aggBlock0 m c t := by
  rw [(dats m 0 c).before_fetched 0 t (fetch0_0 t)]
  unfold Dat.fetched Dat.blockOf aggBlock0 iblk
  rw [A_eq]
  exact Pipeline.fill_of_clip_none (cfg := cfg0) 0 _ (clip_agg0 _) _ _ _
theorem before0_1 (c : Dev nD) (t : Fin cfg0.N) (d) : (dats m 0 c).before 1 t d = aggBlock1 m c t := by
  rw [(dats m 0 c).before_fetched 1 t (fetch0_1 t)]
  unfold Dat.fetched Dat.blockOf aggBlock1 iblk
  rw [A_eq]
  exact Pipeline.fill_of_clip_none (cfg := cfg0) 1 _ (clip_agg1 _) _ _ _
/-- A weight half is fetched once and kept: its buffer holds the block at every point. -/
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation -/

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns: the aggregate windows' buffers stated on the rows their transfers move, the others whole. -/
def bodyPost (c : Dev nD) (t : Fin cfg0.N) : sProp 𝕄 :=
  iprop((dats m 0 c).Φ t.succ ∗ (dats m 0 c).owesAt () t.succ
    ∗ (∃ d, owns (c : Thread nD τ) (st0_0 t) fullShare
        (win0_0.fill (grid0.coords t) d (win0_0.cut (grid0.coords t) ((dats m 0 c).after 0 t))))
    ∗ (∃ d, owns (c : Thread nD τ) (st0_1 t) fullShare
        (win0_1.fill (grid0.coords t) d (win0_1.cut (grid0.coords t) ((dats m 0 c).after 1 t))))
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- At every point: the four inputs' buffers hold their blocks, so sound_kernel applies; the invariant and what
    the core owes pass through unread; the aggregate windows' buffers are handed back holding the same blocks,
    which is what is asked of them on the rows their transfers move (all of them). -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel (F := F) c Set.univ _ _ _ _ _ _ _ _ _ _ _
    (aggBlock0 m c t) (aggBlock1 m c t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]
  · iexists aggBlock0 m c t
    rw [Window.fill_cut]; iexact H0
  isplitl [H1]
  · iexists aggBlock1 m c t
    rw [Window.fill_cut]; iexact H1
  isplitl [H2]; · iexact H2
  isplitl [H3]; · iexact H3
  iexact H4

/-- The pipeline's body obligation, at every point. -/
theorem body_obligation (c : Dev nD) : BodyObligationLoose (dats (F := F) m 0 c) (defs₀ (F := F)) Variants.none () Set.univ := fun t => by
  rw [bigSep_W0, bigSep_W0]
  exact sound_body m c t

/-! ## The run -/

set_option backward.isDefEq.respectTransparency.types false in
/-- At the compiled mesh, for any values, from any memory with zero counters: every weakly fair execution of the
    program terminates, and every final state has each array of the pipeline at what the write-backs leave and
    every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hΦ := fun _ _ => rfl)

/-- The argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.KernelIdeal.Body

end
-- ==== Proof.Payload.lean ====
/-
  The projection kernel's stored value at one index, at the ideal instance: each of the two matrix products, taken
  from a zero accumulator, is the 96-term dot product of a row of its block and a column of its weight half (the
  changes of float format are the identity), and the stored value is their sum.
-/
import proofs.«425643_j19731079758632_3_alg».proof.Proof.Gen.KernelIdeal.Skeleton
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Payload

open Cert.KernelIdeal Cert.KernelIdeal.Gen
open Idealize.ShloMosaic Idealize.ShloMosaic.ValueIdx

/-! ## One matrix product of the body at an index -/

theorem lhs_0 (i : S2000x96.Idx) (q : dot_S2000x96_S96x96_S2000x96_1_0_0_1_n_n.contr.Idx) :
    (dot_S2000x96_S96x96_S2000x96_1_0_0_1_n_n.lhsIdx i q 0).val = (i 0).val := by
  unfold DotDims.lhsIdx
  rw [dif_neg (show ¬(0 : Fin S2000x96.rank) ∈ dot_S2000x96_S96x96_S2000x96_1_0_0_1_n_n.lhsBatch by decide), dif_pos (show (0 : Fin S2000x96.rank) ∈ dot_S2000x96_S96x96_S2000x96_1_0_0_1_n_n.lhsNonContracting by decide)]
  rfl
theorem lhs_1 (i : S2000x96.Idx) (q : dot_S2000x96_S96x96_S2000x96_1_0_0_1_n_n.contr.Idx) :
    (dot_S2000x96_S96x96_S2000x96_1_0_0_1_n_n.lhsIdx i q 1).val = (q ⟨0, by decide⟩).val :=
  dot_S2000x96_S96x96_S2000x96_1_0_0_1_n_n.lhsIdx_val_of_single rfl i q
theorem rhs_0 (i : S2000x96.Idx) (q : dot_S2000x96_S96x96_S2000x96_1_0_0_1_n_n.contr.Idx) :
    (dot_S2000x96_S96x96_S2000x96_1_0_0_1_n_n.rhsIdx i q 0).val = (q ⟨0, by decide⟩).val :=
  dot_S2000x96_S96x96_S2000x96_1_0_0_1_n_n.rhsIdx_val_of_single rfl i q
theorem rhs_1 (i : S2000x96.Idx) (q : dot_S2000x96_S96x96_S2000x96_1_0_0_1_n_n.contr.Idx) :
    (dot_S2000x96_S96x96_S2000x96_1_0_0_1_n_n.rhsIdx i q 1).val = (i 1).val := by
  unfold DotDims.rhsIdx
  rw [dif_neg (show ¬(1 : Fin S96x96.rank) ∈ dot_S2000x96_S96x96_S2000x96_1_0_0_1_n_n.rhsBatch by decide), dif_pos (show (1 : Fin S96x96.rank) ∈ dot_S2000x96_S96x96_S2000x96_1_0_0_1_n_n.rhsNonContracting by decide)]
  rfl

/-- A [2000, 96] by [96, 96] product from the zero accumulator, at (p, q): the 96-term dot product of row p and
    column q. -/
theorem mm_apply (a : FVec Ideal S2000x96 .bf16) (b : FVec Ideal S96x96 .bf16) (p : Fin 2000) (q : Fin 96) :
    FloatOps.matmul dot_S2000x96_S96x96_S2000x96_1_0_0_1_n_n none a b (constant (F := Ideal) S2000x96 .f32 0x00000000#32) (ix2 p q)
      = ∑ k : Fin 96, a (ix2 p k) * b (ix2 k q) := by
  rw [Ideal.matmul_constant_zero_apply, ← Equiv.sum_comp (contrEquiv1 dot_S2000x96_S96x96_S2000x96_1_0_0_1_n_n 96 rfl rfl).symm]
  refine Finset.sum_congr rfl fun k _ => ?_
  have hk := contrEquiv1_symm_val dot_S2000x96_S96x96_S2000x96_1_0_0_1_n_n 96 rfl rfl k
  have el : dot_S2000x96_S96x96_S2000x96_1_0_0_1_n_n.lhsIdx (ix2 p q) ((contrEquiv1 dot_S2000x96_S96x96_S2000x96_1_0_0_1_n_n 96 rfl rfl).symm k) = ix2 p k := funext fun a => Fin.ext (by
    match a with
    | ⟨0, _⟩ => exact lhs_0 _ _
    | ⟨1, _⟩ => exact (lhs_1 _ _).trans hk)
  have er : dot_S2000x96_S96x96_S2000x96_1_0_0_1_n_n.rhsIdx (ix2 p q) ((contrEquiv1 dot_S2000x96_S96x96_S2000x96_1_0_0_1_n_n 96 rfl rfl).symm k) = ix2 k q := funext fun a => Fin.ext (by
    match a with
    | ⟨0, _⟩ => exact (rhs_0 _ _).trans hk
    | ⟨1, _⟩ => exact rhs_1 _ _)
  rw [el, er]

/-- The body's stored value at (p, q): the two dot products, added. -/
theorem pay_apply (x0 x1 : Vec Ideal S2000x96 .f32) (x2 x3 : Vec Ideal S96x96 .f32) (p : Fin 2000) (q : Fin 96) :
    k0_pay1 (F := Ideal) x0 x1 x2 x3 (ix2 p q)
      = (∑ k : Fin 96, x0 (ix2 p k) * x2 (ix2 k q)) + ∑ k : Fin 96, x1 (ix2 p k) * x3 (ix2 k q) := by
  unfold k0_pay1
  simp only [shapeCast_self]
  show FloatOps.matmul dot_S2000x96_S96x96_S2000x96_1_0_0_1_n_n none (x0 : FVec Ideal S2000x96 .bf16) (x2 : FVec Ideal S96x96 .bf16) (constant (F := Ideal) S2000x96 .f32 0x00000000#32) (ix2 p q)
      + FloatOps.matmul dot_S2000x96_S96x96_S2000x96_1_0_0_1_n_n none (x1 : FVec Ideal S2000x96 .bf16) (x3 : FVec Ideal S96x96 .bf16) (constant (F := Ideal) S2000x96 .f32 0x00000000#32) (ix2 p q) = _
  rw [mm_apply, mm_apply]

end Cert.KernelIdeal.Payload

end
-- ==== Proof.Blocks.lean ====
/-
  The projection kernel's blocks, read off the arrays the region finds: row p of block t of an aggregate is row
  2000 t + p of its array (no block is cut, so the staging buffer holds all 2000 rows of it), and each weight
  half's one block is the whole half.
-/
import proofs.«425643_j19731079758632_3_alg».proof.Proof.BodyIdeal
import Idealize.ShloMosaic.Lib.Pipeline.Value
import Idealize.ShloMosaic.Lib.ValueIdx

set_option maxRecDepth 16384

noncomputable section

open scoped BigOperators

namespace Cert.KernelIdeal.Blocks

open Cert.KernelIdeal Cert.KernelIdeal.Gen Cert.KernelIdeal.Body
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ)

/-! ## The blocks, read off the arrays -/

theorem t_lt (t : Fin cfg0.N) : t.val < 25 := lt_of_lt_of_eq t.isLt N_0

/-- The printed index maps, decided over the grid: the aggregates' and the result's block row index is the point,
    their column index 0; the weight halves' block is block (0, 0). -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Row p of block t of an aggregate is row 2000 t + p of the array. -/
abbrev aggRow (t : Fin cfg0.N) (p : Fin 2000) : Fin 50001 := ⟨2000 * t.val + p.val, by have := t_lt t; omega⟩

/-- Block t of ANY contents A of the first aggregate's array, as the staging buffer holds it once fetched. -/
theorem fill_read0 (c : Dev nD) (A : Buf (Elt Ideal) ((c : Thread nD τ).loc (Pipeline.arrRef spec0 0)))
    (d : S2000x96.Idx → EReal) (t : Fin cfg0.N) (p : Fin 2000) (k : Fin 96) :
    win0_0.fill (grid0.coords t) d (((cfg0.win 0).blk t).view.read (Elt Ideal) A) (ix2 p k) = A (ix2 (aggRow t p) k) := by
  have hm : win0_0.moved (grid0.coords t) (ix2 p k) = true :=
    (win0_0.moved_iff _ _).mpr fun a => by
      have h := ((ix2 p k : S2000x96.Idx) a).isLt
      unfold Window.xsize; rw [clip_agg0]; exact h
  unfold Window.fill
  rw [dif_pos hm]
  show A (((cfg0.win 0).blk t).view.emb _) = _
  obtain ⟨e0, e1, -⟩ := idx_facts t
  refine congrArg A (funext fun a => Fin.ext ?_)
  match a with
  | ⟨0, _⟩ => show win0_0.index t (0 : Fin 2) * 2000 + 1 * p.val = 2000 * t.val + p.val; omega
  | ⟨1, _⟩ => show win0_0.index t (1 : Fin 2) * 96 + 1 * k.val = k.val; omega

theorem fill_read1 (c : Dev nD) (A : Buf (Elt Ideal) ((c : Thread nD τ).loc (Pipeline.arrRef spec0 1)))
    (d : S2000x96.Idx → EReal) (t : Fin cfg0.N) (p : Fin 2000) (k : Fin 96) :
    win0_1.fill (grid0.coords t) d (((cfg0.win 1).blk t).view.read (Elt Ideal) A) (ix2 p k) = A (ix2 (aggRow t p) k) := by
  have hm : win0_1.moved (grid0.coords t) (ix2 p k) = true :=
    (win0_1.moved_iff _ _).mpr fun a => by
      have h := ((ix2 p k : S2000x96.Idx) a).isLt
      unfold Window.xsize; rw [clip_agg1]; exact h
  unfold Window.fill
  rw [dif_pos hm]
  show A (((cfg0.win 1).blk t).view.emb _) = _
  obtain ⟨-, -, e2, e3, -⟩ := idx_facts t
  refine congrArg A (funext fun a => Fin.ext ?_)
  match a with
  | ⟨0, _⟩ => show win0_1.index t (0 : Fin 2) * 2000 + 1 * p.val = 2000 * t.val + p.val; omega
  | ⟨1, _⟩ => show win0_1.index t (1 : Fin 2) * 96 + 1 * k.val = k.val; omega

/-- A weight half's one block is the whole half, for any contents of it. -/
theorem read2 (c : Dev nD) (A : Buf (Elt Ideal) ((c : Thread nD τ).loc (Pipeline.arrRef spec0 2))) (t : Fin cfg0.N) (k q : Fin 96) :
    ((cfg0.win 2).blk t).view.read (Elt Ideal) A (ix2 k q) = A (ix2 k q) := by
  show A (((cfg0.win 2).blk t).view.emb (ix2 k q)) = _
  obtain ⟨-, -, -, -, e4, e5, -⟩ := idx_facts t
  refine congrArg A (funext fun a => Fin.ext ?_)
  match a with
  | ⟨0, _⟩ => show win0_2.index t (0 : Fin 2) * 96 + 1 * k.val = k.val; omega
  | ⟨1, _⟩ => show win0_2.index t (1 : Fin 2) * 96 + 1 * q.val = q.val; omega
theorem read3 (c : Dev nD) (A : Buf (Elt Ideal) ((c : Thread nD τ).loc (Pipeline.arrRef spec0 3))) (t : Fin cfg0.N) (k q : Fin 96) :
    ((cfg0.win 3).blk t).view.read (Elt Ideal) A (ix2 k q) = A (ix2 k q) := by
  show A (((cfg0.win 3).blk t).view.emb (ix2 k q)) = _
  obtain ⟨-, -, -, -, -, -, e6, e7, -⟩ := idx_facts t
  refine congrArg A (funext fun a => Fin.ext ?_)
  match a with
  | ⟨0, _⟩ => show win0_3.index t (0 : Fin 2) * 96 + 1 * k.val = k.val; omega
  | ⟨1, _⟩ => show win0_3.index t (1 : Fin 2) * 96 + 1 * q.val = q.val; omega

/-- The blocks the body reads at point t, off the arrays as the region finds them. -/
theorem aggBlock0_apply (c : Dev nD) (t : Fin cfg0.N) (p : Fin 2000) (k : Fin 96) :
    aggBlock0 m c t (ix2 p k) = V m c (Pipeline.arrRef spec0 0) (ix2 (aggRow t p) k) := by
  unfold aggBlock0 iblk
  exact fill_read0 c (V m c (Pipeline.arrRef spec0 0)) _ t p k
theorem aggBlock1_apply (c : Dev nD) (t : Fin cfg0.N) (p : Fin 2000) (k : Fin 96) :
    aggBlock1 m c t (ix2 p k) = V m c (Pipeline.arrRef spec0 1) (ix2 (aggRow t p) k) := by
  unfold aggBlock1 iblk
  exact fill_read1 c (V m c (Pipeline.arrRef spec0 1)) _ t p k
theorem wx_apply (c : Dev nD) (t : Fin cfg0.N) (k q : Fin 96) :
    iblk m c 2 t (ix2 k q) = V m c (Pipeline.arrRef spec0 2) (ix2 k q) := by
  unfold iblk
  exact read2 c (V m c (Pipeline.arrRef spec0 2)) t k q
theorem we_apply (c : Dev nD) (t : Fin cfg0.N) (k q : Fin 96) :
    iblk m c 3 t (ix2 k q) = V m c (Pipeline.arrRef spec0 3) (ix2 k q) := by
  unfold iblk
  exact read3 c (V m c (Pipeline.arrRef spec0 3)) t k q

end Cert.KernelIdeal.Blocks

end
-- ==== Proof.KernelValue.lean ====
/-
  What the projection kernel's result array holds after the run, at the ideal instance.

  At grid point t the body stores, at row p and column q of its block,
      sum over k of ax[p, k] * wx[k, q]  +  sum over k of ae[p, k] * we[k, q],
  where ax, ae are the point's blocks of the two aggregated arrays and wx, we the two weight halves. Block t of an
  aggregate is rows 2000 t .. 2000 t + 1999 of its array, and the 25 written-back blocks tile the 50000 rows of the
  result; so the result array ends as ONE function of the four arrays the region found: outOf.
-/
import proofs.«425643_j19731079758632_3_alg».proof.Proof.Payload
import proofs.«425643_j19731079758632_3_alg».proof.Proof.Blocks

set_option maxRecDepth 16384

noncomputable section

open scoped BigOperators

namespace Cert.KernelIdeal.Val

open Cert.KernelIdeal Cert.KernelIdeal.Gen Cert.KernelIdeal.Body Cert.KernelIdeal.Payload Cert.KernelIdeal.Blocks
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (ρ : Dev nD → PrngReg)

/-- A row of the result as a row of an aggregate (which has one more row, the sink). -/
abbrev up (r : Fin 50000) : Fin 50001 := ⟨r.val, by omega⟩

/-- Row i of the result: row i of the first aggregate into the first weight half, plus row i of the second
    aggregate into the second half. (The aggregates' last row, 50000, is read by no row of the result.) -/
def outOf (ax ae : S50001x96.Idx → EReal) (wx we : S96x96.Idx → EReal) : S50000x96.Idx → EReal := fun i =>
  (∑ k : Fin 96, ax (ix2 (up (i 0)) k) * wx (ix2 k (i 1))) + ∑ k : Fin 96, ae (ix2 (up (i 0)) k) * we (ix2 k (i 1))

theorem outOf_apply (ax ae : S50001x96.Idx → EReal) (wx we : S96x96.Idx → EReal) (r : Fin 50000) (q : Fin 96) :
    outOf ax ae wx we (ix2 r q)
      = (∑ k : Fin 96, ax (ix2 (up r) k) * wx (ix2 k q)) + ∑ k : Fin 96, ae (ix2 (up r) k) * we (ix2 k q) := rfl

/-- The result array as a function of what the region finds. -/
abbrev result (c : Dev nD) : S50000x96.Idx → EReal :=
  outOf (V m c (Pipeline.arrRef spec0 0)) (V m c (Pipeline.arrRef spec0 1)) (V m c (Pipeline.arrRef spec0 2)) (V m c (Pipeline.arrRef spec0 3))

theorem hz : (![0, 0] : Fin 2 → Nat) = fun _ => 0 := funext fun a => by fin_cases a <;> rfl

/-- Row p of the result's block t is row 2000 t + p of the result. -/
abbrev row4 (t : Fin cfg0.N) (p : Fin 2000) : Fin 50000 := ⟨2000 * t.val + p.val, by have := t_lt t; omega⟩
theorem up_row4 (t : Fin cfg0.N) (p : Fin 2000) : up (row4 t p) = aggRow t p := rfl

theorem emb4 (t : Fin cfg0.N) (p : Fin 2000) (q : Fin 96) :
    ((cfg0.win 4).blk t).view.emb (ix2 p q) = (ix2 (row4 t p) q : S50000x96.Idx) := by
  obtain ⟨-, -, -, -, -, -, -, -, e8, e9⟩ := idx_facts t
  funext a; apply Fin.ext
  match a with
  | ⟨0, _⟩ => show win0_4.index t (0 : Fin 2) * 2000 + 1 * p.val = 2000 * t.val + p.val; omega
  | ⟨1, _⟩ => show win0_4.index t (1 : Fin 2) * 96 + 1 * q.val = q.val; omega

/-- What the body leaves in the result's buffer at point t, at (p, q). -/
theorem outBlock_apply (x0 x1 : Vec Ideal S2000x96 .f32) (x2 x3 : Vec Ideal S96x96 .f32) (p : Fin 2000) (q : Fin 96) :
    outBlock x0 x1 x2 x3 (ix2 p q)
      = (∑ k : Fin 96, x0 (ix2 p k) * x2 (ix2 k q)) + ∑ k : Fin 96, x1 (ix2 p k) * x3 (ix2 k q) := by
  unfold outBlock
  rw [View.canon_unit_zero hz]
  simp only [View.ld_unit_zero (S := S2000x96) hz, View.ld_unit_zero (S := S96x96) hz]
  exact pay_apply x0 x1 x2 x3 p q

/-- For ANY contents of the four input buffers that are the blocks of arrays A0 … A3 at point t, what the body
    leaves in the result's buffer, as written back, is block t of outOf of those arrays. -/
theorem cut_outBlock (t : Fin cfg0.N) (x0 x1 : Vec Ideal S2000x96 .f32) (x2 x3 : Vec Ideal S96x96 .f32)
    (A0 A1 : S50001x96.Idx → EReal) (A2 A3 : S96x96.Idx → EReal)
    (h0 : ∀ (p : Fin 2000) (k : Fin 96), x0 (ix2 p k) = A0 (ix2 (aggRow t p) k))
    (h1 : ∀ (p : Fin 2000) (k : Fin 96), x1 (ix2 p k) = A1 (ix2 (aggRow t p) k))
    (h2 : ∀ (k q : Fin 96), x2 (ix2 k q) = A2 (ix2 k q))
    (h3 : ∀ (k q : Fin 96), x3 (ix2 k q) = A3 (ix2 k q)) :
    (cfg0.win 4).cut (grid0.coords t) (outBlock x0 x1 x2 x3)
      = ((cfg0.win 4).blk t).view.read (Elt Ideal) (outOf A0 A1 A2 A3) := by
  funext j
  obtain ⟨p, q, rfl⟩ : ∃ (p : Fin 2000) (q : Fin 96), j = (ix2 p q : S2000x96.Idx) := ⟨j 0, j 1, eq_ix2 (n0 := 2000) (n1 := 96) j⟩
  show outBlock x0 x1 x2 x3 (ix2 p q) = outOf A0 A1 A2 A3 (((cfg0.win 4).blk t).view.emb (ix2 p q))
  rw [outBlock_apply, emb4, outOf_apply, up_row4]
  simp only [h0, h1, h2, h3]

/-- WHAT POINT t WRITES BACK is block t of the result function. -/
theorem flushed_eq (c : Dev nD) (t : Fin cfg0.N) :
    (dats m 0 c).flushed 4 t = ((cfg0.win 4).blk t).view.read (Elt Ideal) (result m c) := by
  show (cfg0.win 4).cut (grid0.coords t) ((dats m 0 c).after 4 t) = _
  rw [after0_4]
  exact cut_outBlock t _ _ _ _ _ _ _ _ (aggBlock0_apply m c t) (aggBlock1_apply m c t) (wx_apply m c t) (we_apply m c t)

/-- An index of the result is in point t's block iff each coordinate is in the block's range on its axis. -/
theorem mem_blk4 (t : Fin cfg0.N) (i : S50000x96.Idx) :
    i ∈ ((cfg0.win 4).blk t).view.set ↔ ∀ a : Fin 2, win0_4.index t a * S2000x96.size a ≤ (i a).val ∧ (i a).val < win0_4.index t a * S2000x96.size a + S2000x96.size a := by
  show i ∈ ((View.whole main_v22).slice (win0_4.rect t)).set ↔ _
  rw [View.set_slice_whole, Rect.mem_set_unit]
  exact Iff.rfl

/-- Row r of the result is written back by point r / 2000. -/
theorem cover4 (i : S50000x96.Idx) : ∃ t : Fin cfg0.N, (cfg0.win 4).flush t = true ∧ i ∈ ((cfg0.win 4).blk t).view.set := by
  have hi0 : (i 0).val < 50000 := idx2_lt0 i
  have hi1 : (i 1).val < 96 := idx2_lt1 i
  have hN : (i 0).val / 2000 < cfg0.N := by rw [show cfg0.N = 25 from N_0]; omega
  refine ⟨⟨(i 0).val / 2000, hN⟩, flush0_4 _, ?_⟩
  rw [mem_blk4]
  obtain ⟨-, -, -, -, -, -, -, -, e8, e9⟩ := idx_facts ⟨(i 0).val / 2000, hN⟩
  intro a
  match a with
  | ⟨0, _⟩ =>
    show win0_4.index ⟨(i 0).val / 2000, hN⟩ (0 : Fin 2) * 2000 ≤ (i 0).val ∧ (i 0).val < win0_4.index ⟨(i 0).val / 2000, hN⟩ (0 : Fin 2) * 2000 + 2000
    rw [e8]; show (i 0).val / 2000 * 2000 ≤ (i 0).val ∧ (i 0).val < (i 0).val / 2000 * 2000 + 2000; omega
  | ⟨1, _⟩ =>
    show win0_4.index ⟨(i 0).val / 2000, hN⟩ (1 : Fin 2) * 96 ≤ (i 1).val ∧ (i 1).val < win0_4.index ⟨(i 0).val / 2000, hN⟩ (1 : Fin 2) * 96 + 96
    omega

/-- THE RESULT ARRAY after the run. -/
theorem final4 (c : Dev nD) : (dats m 0 c).arrAt 4 cfg0.N = result m c :=
  (dats m 0 c).arrAt_eq_of_cover 4 (result m c) (fun t _ => flushed_eq m c t) cover4

/-- The frame run re-posted: the result array at the result function of what the region finds, the arguments unchanged. -/
theorem run : θ_run defs (onTc (τ := τ) (main (F := Ideal))) ⟨m, fun _ => 0, ρ⟩ fun r => ∀ c : Dev nD,
      r.2.mem ((c.tc : Thread nD τ).loc main_v22) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨((h c).1 4).trans (final4 m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩)
    (run_main m ρ)

end Cert.KernelIdeal.Val

end
-- ==== Proof.LibRows.lean ====
/-
  Rows of a matrix taken at an index vector, and rows added into a matrix at an index vector, read at one index.

  Two host operations over an operand of shape [n, c], a column of integer words of shape [e, 1], and an
  array of shape [e, c]:

  • the gather with offset axis 1, collapsed slice axis 0, start index map [0], index vector axis 1 and slice
    sizes [1, c] — what h[src] of a matrix h at an index vector src lowers to. Its element (p, q) is the
    operand's element (k, q), where k is the word idx[p, 0] read as a signed integer and clamped into
    [0, n − 1] (rowGather_apply);

  • the scatter with update window axis 1, inserted window axis 0, scatter-dims-to-operand-dims [0] and index
    vector axis 1, whose body adds — what segment_sum(u, dst, num_segments = n) lowers to (over zeros). The
    update (p, q) lands on the operand's element (r, q) exactly when the word idx[p, 0], read signed and NOT
    clamped, is r (rowScatter_resultIdx); so over the extended reals the result's element (r, q) is the
    operand's plus the sum, over all p, of upd[p, q] where idx[p, 0] = r and of 0 elsewhere
    (rowScatterAdd_apply). An index outside [0, n) names no row: its update is dropped.

  The same scatter for a rank-1 operand [n] and updates [e] (no window axis): segment_sum of a vector
  (rowScatter1_resultIdx, rowScatterAdd1_apply).

  Everything is symbolic in the extents n, e, c and the word width w; no index set is enumerated.
-/
import Idealize.ShloMosaic.PureOps.Ideal
import Idealize.ShloMosaic.Lib.ValueIdx

noncomputable section

open scoped BigOperators

namespace Cert.LibRows

open Idealize.ShloMosaic Idealize.ShloMosaic.ValueIdx

/-! ## Rows taken at an index vector -/

section RowGather
variable {α : Type}

/-- The dimension numbers of "rows of an [n, c] operand at an [e, 1] column of start indices": the result
    [e, c] has one offset axis (1), the operand's axis 0 is collapsed and is the one the start index names,
    the slice is one whole row. Their conditions wf are a parameter, decided on a program's literal shapes. -/
abbrev rowGatherDims (n e c : Nat)
    (wf : GatherDims.WF ⟨2, ![n, c]⟩ ⟨2, ![e, 1]⟩ ⟨2, ![e, c]⟩ [1] [0] [] [0] [] 1 ![1, c]) :
    GatherDims ⟨2, ![n, c]⟩ ⟨2, ![e, 1]⟩ ⟨2, ![e, c]⟩ where
  offsetDims := [1]
  collapsedSliceDims := [0]
  operandBatchingDims := []
  startIndicesBatchingDims := []
  startIndexMap := [0]
  indexVectorDim := 1
  sliceSizes := ![1, c]
  wf := wf

/-- THE ROW GATHER READ AT (p, q): the operand at row idx[p, 0] — read signed and clamped into
    [0, n − 1] — and column q. -/
theorem rowGather_apply {n e c w : Nat} (hn : 0 < n)
    (wf : GatherDims.WF ⟨2, ![n, c]⟩ ⟨2, ![e, 1]⟩ ⟨2, ![e, c]⟩ [1] [0] [] [0] [] 1 ![1, c])
    (x : (⟨2, ![n, c]⟩ : Shape).Idx → α) (idx : IVec ⟨2, ![e, 1]⟩ w) (p : Fin e) (q : Fin c) :
    Host.gather (rowGatherDims n e c wf) x idx (ix2 p q)
      = x (ix2 ⟨min (idx (ix2 p (0 : Fin 1))).toInt.toNat (n - 1), by omega⟩ q) := by
  unfold Host.gather
  congr 1
  funext a
  refine Fin.ext ?_
  match a with
  | ⟨0, _⟩ =>
    -- the row axis: collapsed (no offset), not batching, named by the start index map
    show (rowGatherDims n e c wf).start (ix2 p q) idx 0 + (rowGatherDims n e c wf).batchCoord (ix2 p q) 0
        + (rowGatherDims n e c wf).offCoord (ix2 p q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims n e c wf).startIndexMap from List.mem_singleton.mpr rfl)]
    have hsi : (rowGatherDims n e c wf).siIdx (ix2 p q) ⟨List.idxOf (0 : Fin 2) (rowGatherDims n e c wf).startIndexMap,
        List.idxOf_lt_length_iff.2 (List.mem_singleton.mpr rfl)⟩ = ix2 p (0 : Fin 1) := by
      funext b; refine Fin.ext ?_
      match b with
      | ⟨0, _⟩ => rfl
      | ⟨1, _⟩ => rfl
    rw [hsi]
    rfl
  | ⟨1, _⟩ =>
    -- the column axis: not named by the start index map (start 0), not batching, the result's offset axis
    show (rowGatherDims n e c wf).start (ix2 p q) idx 1 + (rowGatherDims n e c wf).batchCoord (ix2 p q) 1
        + (rowGatherDims n e c wf).offCoord (ix2 p q) 1 = _
    rw [GatherDims.batchCoord_eq_zero _ _ _ List.not_mem_nil]
    have hst : (rowGatherDims n e c wf).start (ix2 p q) idx 1 = 0 := by
      unfold GatherDims.start
      rw [dif_neg (show (1 : Fin 2) ∉ ([0] : List (Fin 2)) by decide)]
    rw [hst]
    simp only [Nat.add_zero, Nat.zero_add]
    rfl

end RowGather

/-! ## Rows added at an index vector -/

section RowScatter

/-- The dimension numbers of "rows of [e, c] updates added into an [n, c] operand at an [e, 1] column of
    scatter indices": the updates' axis 1 is the window axis (a whole row), the operand's axis 0 is inserted
    and is the one the scatter index names. Their conditions wf are a parameter, decided on a program's
    literal shapes. -/
abbrev rowScatterDims (n e c : Nat)
    (wf : ScatterDims.WF ⟨2, ![n, c]⟩ ⟨2, ![e, 1]⟩ ⟨2, ![e, c]⟩ [1] [0] [0] 1) :
    ScatterDims ⟨2, ![n, c]⟩ ⟨2, ![e, 1]⟩ ⟨2, ![e, c]⟩ where
  updateWindowDims := [1]
  insertedWindowDims := [0]
  scatterDimsToOperandDims := [0]
  indexVectorDim := 1
  wf := wf

/-- An axis is kept by a list of axes exactly when it is not in the list. -/
theorem mem_kept {s : Shape} (axes : List (Fin s.rank)) (a : Fin s.rank) : a ∈ s.kept axes ↔ a ∉ axes := by
  simp [Shape.kept, List.mem_filter, List.mem_finRange]

variable {n e c w : Nat} (wf : ScatterDims.WF ⟨2, ![n, c]⟩ ⟨2, ![e, 1]⟩ ⟨2, ![e, c]⟩ [1] [0] [0] 1)

/-- On the row axis the window of update (p, q) starts at the word idx[p, 0], read signed … -/
theorem rowScatter_start_row (idx : IVec ⟨2, ![e, 1]⟩ w) (p : Fin e) (q : Fin c) :
    (rowScatterDims n e c wf).start (ix2 p q) idx 0 = (idx (ix2 p (0 : Fin 1))).toInt := by
  unfold ScatterDims.start
  rw [dif_pos (show (0 : Fin 2) ∈ ([0] : List (Fin 2)) from List.mem_singleton.mpr rfl)]
  have hsi : (rowScatterDims n e c wf).siIdx (ix2 p q) ⟨List.idxOf (0 : Fin 2) (rowScatterDims n e c wf).scatterDimsToOperandDims,
      List.idxOf_lt_length_iff.2 (List.mem_singleton.mpr rfl)⟩ = ix2 p (0 : Fin 1) := by
    funext b; refine Fin.ext ?_
    match b with
    | ⟨0, _⟩ => rfl
    | ⟨1, _⟩ => rfl
  rw [hsi]

/-- … and on the column axis, which no scatter index names, at 0. -/
theorem rowScatter_start_col (idx : IVec ⟨2, ![e, 1]⟩ w) (p : Fin e) (q : Fin c) :
    (rowScatterDims n e c wf).start (ix2 p q) idx 1 = 0 := by
  unfold ScatterDims.start
  rw [dif_neg (show (1 : Fin 2) ∉ ([0] : List (Fin 2)) by decide)]

/-- The row axis is inserted: no window coordinate. -/
theorem rowScatter_window_row (p : Fin e) (q : Fin c) : (rowScatterDims n e c wf).window (ix2 p q) 0 = 0 := by
  unfold ScatterDims.window
  rw [dif_neg (fun h => (mem_kept (s := ⟨2, ![n, c]⟩) [0] 0).mp h (List.mem_singleton.mpr rfl))]

/-- The column axis carries the update's column. -/
theorem rowScatter_window_col (p : Fin e) (q : Fin c) : (rowScatterDims n e c wf).window (ix2 p q) 1 = q.val := by
  unfold ScatterDims.window
  rw [dif_pos ((mem_kept (s := ⟨2, ![n, c]⟩) [0] 1).mpr (show (1 : Fin 2) ∉ ([0] : List (Fin 2)) by decide))]
  rfl

/-- WHERE UPDATE (p, q) LANDS: on the operand's element (r, q') exactly when the word idx[p, 0], read
    signed, is r, and the columns agree. (An index below 0 or from n on lands nowhere.) -/
theorem rowScatter_resultIdx (idx : IVec ⟨2, ![e, 1]⟩ w) (p : Fin e) (q : Fin c) (r : Fin n) (q' : Fin c) :
    (rowScatterDims n e c wf).resultIdx? (ix2 p q) idx = some (ix2 r q')
      ↔ ((idx (ix2 p (0 : Fin 1))).toInt = (r.val : Int) ∧ q = q') := by
  have h0 := rowScatter_start_row wf idx p q
  have h1 := rowScatter_start_col wf idx p q
  have w0 := rowScatter_window_row wf p q
  have w1 := rowScatter_window_col wf p q
  unfold ScatterDims.resultIdx?
  constructor
  · intro h
    split at h
    · rename_i hb
      have hf := Option.some.inj h
      have e0 := congrArg (fun f => (f 0).val) hf
      have e1 := congrArg (fun f => (f 1).val) hf
      have b0 := (hb 0).1
      simp only [h0, w0, h1, w1] at e0 e1 b0
      change ((idx (ix2 p (0 : Fin 1))).toInt + ((0 : Nat) : Int)).toNat = r.val at e0
      change ((0 : Int) + (q.val : Int)).toNat = q'.val at e1
      refine ⟨by omega, Fin.ext (by omega)⟩
    · exact absurd h (by simp)
  · rintro ⟨hr, rfl⟩
    have hb : ∀ a, 0 ≤ (rowScatterDims n e c wf).start (ix2 p q) idx a + ((rowScatterDims n e c wf).window (ix2 p q) a : Int)
        ∧ (rowScatterDims n e c wf).start (ix2 p q) idx a + ((rowScatterDims n e c wf).window (ix2 p q) a : Int)
          < ((⟨2, ![n, c]⟩ : Shape).size a : Int) := by
      intro a
      match a with
      | ⟨0, _⟩ =>
        show 0 ≤ (rowScatterDims n e c wf).start (ix2 p q) idx 0 + ((rowScatterDims n e c wf).window (ix2 p q) 0 : Int)
          ∧ (rowScatterDims n e c wf).start (ix2 p q) idx 0 + ((rowScatterDims n e c wf).window (ix2 p q) 0 : Int) < (n : Int)
        rw [h0, w0, hr]
        have := r.isLt
        omega
      | ⟨1, _⟩ =>
        show 0 ≤ (rowScatterDims n e c wf).start (ix2 p q) idx 1 + ((rowScatterDims n e c wf).window (ix2 p q) 1 : Int)
          ∧ (rowScatterDims n e c wf).start (ix2 p q) idx 1 + ((rowScatterDims n e c wf).window (ix2 p q) 1 : Int) < (c : Int)
        rw [h1, w1]
        have := q.isLt
        omega
    rw [dif_pos hb]
    congr 1
    funext a
    refine Fin.ext ?_
    match a with
    | ⟨0, _⟩ =>
      show ((rowScatterDims n e c wf).start (ix2 p q) idx 0 + ((rowScatterDims n e c wf).window (ix2 p q) 0 : Int)).toNat = r.val
      rw [h0, w0, hr]; omega
    | ⟨1, _⟩ =>
      show ((rowScatterDims n e c wf).start (ix2 p q) idx 1 + ((rowScatterDims n e c wf).window (ix2 p q) 1 : Int)).toNat = q.val
      rw [h1, w1]; omega

/-- THE ROW SCATTER-ADD READ AT (r, q), over the extended reals: the operand's element plus the sum over all
    update rows p of upd[p, q] where idx[p, 0] = r (read signed), of 0 elsewhere. -/
theorem rowScatterAdd_apply (x : (⟨2, ![n, c]⟩ : Shape).Idx → EReal) (idx : IVec ⟨2, ![e, 1]⟩ w)
    (upd : (⟨2, ![e, c]⟩ : Shape).Idx → EReal) (r : Fin n) (q : Fin c) :
    Host.scatterAdd (F := Ideal) (φ := .f32) (rowScatterDims n e c wf) x idx upd (ix2 r q)
      = x (ix2 r q) + ∑ p : Fin e, if (idx (ix2 p (0 : Fin 1))).toInt = (r.val : Int) then upd (ix2 p q) else 0 := by
  show x (ix2 r q) + ∑ j ∈ Finset.univ.filter (fun j => (rowScatterDims n e c wf).resultIdx? j idx = some (ix2 r q)), upd j = _
  congr 1
  rw [Finset.sum_filter, sum_idx2]
  refine Finset.sum_congr rfl fun p _ => ?_
  simp only [rowScatter_resultIdx]
  by_cases hp : (idx (ix2 p (0 : Fin 1))).toInt = (r.val : Int)
  · simp only [hp, true_and]
    rw [Finset.sum_ite_eq' Finset.univ q (fun b => upd (ix2 p b))]
    simp
  · simp only [hp, false_and, if_false, Finset.sum_const_zero]

end RowScatter

/-! ## Entries added into a vector at an index vector -/

section VecScatter

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The dimension numbers of "entries of [e] updates added into an [n] operand at an [e, 1] column of scatter
    indices": the updates have no window axis, the operand's one axis is inserted and is the one the scatter
    index names. Their conditions wf are a parameter, decided on a program's literal shapes. -/
abbrev rowScatterDims1 (n e : Nat)
    (wf : ScatterDims.WF ⟨1, ![n]⟩ ⟨2, ![e, 1]⟩ ⟨1, ![e]⟩ [] [0] [0] 1) :
    ScatterDims ⟨1, ![n]⟩ ⟨2, ![e, 1]⟩ ⟨1, ![e]⟩ where
  updateWindowDims := []
  insertedWindowDims := [0]
  scatterDimsToOperandDims := [0]
  indexVectorDim := 1
  wf := wf

variable {n e w : Nat} (wf : ScatterDims.WF ⟨1, ![n]⟩ ⟨2, ![e, 1]⟩ ⟨1, ![e]⟩ [] [0] [0] 1)

/-- The window of update p starts at the word idx[p, 0], read signed … -/
theorem rowScatter1_start (idx : IVec ⟨2, ![e, 1]⟩ w) (p : Fin e) :
    (rowScatterDims1 n e wf).start (ix1 p) idx 0 = (idx (ix2 p (0 : Fin 1))).toInt := by
  unfold ScatterDims.start
  rw [dif_pos (show (0 : Fin 1) ∈ ([0] : List (Fin 1)) from List.mem_singleton.mpr rfl)]
  have hsi : (rowScatterDims1 n e wf).siIdx (ix1 p) ⟨List.idxOf (0 : Fin 1) (rowScatterDims1 n e wf).scatterDimsToOperandDims,
      List.idxOf_lt_length_iff.2 (List.mem_singleton.mpr rfl)⟩ = ix2 p (0 : Fin 1) := by
    funext b; refine Fin.ext ?_
    match b with
    | ⟨0, _⟩ => rfl
    | ⟨1, _⟩ => rfl
  rw [hsi]

/-- … and the operand's one axis is inserted: no window coordinate. -/
theorem rowScatter1_window (p : Fin e) : (rowScatterDims1 n e wf).window (ix1 p) 0 = 0 := by
  unfold ScatterDims.window
  rw [dif_neg (fun h => (mem_kept (s := ⟨1, ![n]⟩) [0] 0).mp h (List.mem_singleton.mpr rfl))]

/-- WHERE UPDATE p LANDS: on the operand's element r exactly when the word idx[p, 0], read signed, is r. -/
theorem rowScatter1_resultIdx (idx : IVec ⟨2, ![e, 1]⟩ w) (p : Fin e) (r : Fin n) :
    (rowScatterDims1 n e wf).resultIdx? (ix1 p) idx = some (ix1 r)
      ↔ (idx (ix2 p (0 : Fin 1))).toInt = (r.val : Int) := by
  have h0 := rowScatter1_start wf idx p
  have w0 := rowScatter1_window wf p
  unfold ScatterDims.resultIdx?
  constructor
  · intro h
    split at h
    · rename_i hb
      have hf := Option.some.inj h
      have e0 := congrArg (fun f => (f 0).val) hf
      have b0 := (hb 0).1
      simp only [h0, w0] at e0 b0
      change ((idx (ix2 p (0 : Fin 1))).toInt + ((0 : Nat) : Int)).toNat = r.val at e0
      omega
    · exact absurd h (by simp)
  · intro hr
    have hb : ∀ a, 0 ≤ (rowScatterDims1 n e wf).start (ix1 p) idx a + ((rowScatterDims1 n e wf).window (ix1 p) a : Int)
        ∧ (rowScatterDims1 n e wf).start (ix1 p) idx a + ((rowScatterDims1 n e wf).window (ix1 p) a : Int)
          < ((⟨1, ![n]⟩ : Shape).size a : Int) := by
      intro a
      match a with
      | ⟨0, _⟩ =>
        show 0 ≤ (rowScatterDims1 n e wf).start (ix1 p) idx 0 + ((rowScatterDims1 n e wf).window (ix1 p) 0 : Int)
          ∧ (rowScatterDims1 n e wf).start (ix1 p) idx 0 + ((rowScatterDims1 n e wf).window (ix1 p) 0 : Int) < (n : Int)
        rw [h0, w0, hr]
        have := r.isLt
        omega
    rw [dif_pos hb]
    congr 1
    funext a
    refine Fin.ext ?_
    match a with
    | ⟨0, _⟩ =>
      show ((rowScatterDims1 n e wf).start (ix1 p) idx 0 + ((rowScatterDims1 n e wf).window (ix1 p) 0 : Int)).toNat = r.val
      rw [h0, w0, hr]; omega

/-- THE VECTOR SCATTER-ADD READ AT r, over the extended reals: the operand's element plus the sum over all
    updates p of upd[p] where idx[p, 0] = r (read signed), of 0 elsewhere. -/
theorem rowScatterAdd1_apply (x : (⟨1, ![n]⟩ : Shape).Idx → EReal) (idx : IVec ⟨2, ![e, 1]⟩ w)
    (upd : (⟨1, ![e]⟩ : Shape).Idx → EReal) (r : Fin n) :
    Host.scatterAdd (F := Ideal) (φ := .f32) (rowScatterDims1 n e wf) x idx upd (ix1 r)
      = x (ix1 r) + ∑ p : Fin e, if (idx (ix2 p (0 : Fin 1))).toInt = (r.val : Int) then upd (ix1 p) else 0 := by
  show x (ix1 r) + ∑ j ∈ Finset.univ.filter (fun j => (rowScatterDims1 n e wf).resultIdx? j idx = some (ix1 r)), upd j = _
  congr 1
  rw [Finset.sum_filter, sum_idx1]
  refine Finset.sum_congr rfl fun p _ => ?_
  simp only [rowScatter1_resultIdx]

end VecScatter

end Cert.LibRows

end
-- ==== Proof.Edges.lean ====
/-
  The graph's edges as both programs read them.

  The edge index is a [2, 800000] array of words: row 0 the sources, row 1 the destinations. Both programs take
  the two rows as vectors (srcVec, dstVec); wrap a negative source by adding 50000 and gather the node-feature
  row at it, the row index clamped into [0, 49999] (gathered); and add rows into an array of zeros at a column of
  destination words, a word outside the array's rows naming no row (aggregate). The kernel's column sends a
  dropped edge to row 50000 of a 50001-row array (dstMaskedCol); the reference's is the destinations themselves
  (dstCol) into 50000 rows.
-/
import proofs.«425643_j19731079758632_3_alg».proof.Proof.LibRows
import Idealize.ShloMosaic.Lib.Pipeline.Value
import Idealize.ShloMosaic.PureOps.Ideal.Laws

noncomputable section

open scoped BigOperators

namespace Cert.Edges

open Idealize.ShloMosaic Idealize.ShloMosaic.ValueIdx Cert.LibRows

abbrev SIdx : Shape := ⟨2, ![2, 800000]⟩
abbrev SRow : Shape := ⟨2, ![1, 800000]⟩
abbrev SVec : Shape := ⟨1, ![800000]⟩
abbrev SCol : Shape := ⟨2, ![800000, 1]⟩
abbrev S0 : Shape := ⟨0, ![]⟩
abbrev SNodes : Shape := ⟨2, ![50000, 96]⟩
abbrev SEdges : Shape := ⟨2, ![800000, 96]⟩

/-- The sources and the destinations, as vectors of words. -/
def srcVec (x2 : IVec SIdx 32) : IVec SVec 32 :=
  shapeCast SVec (extractStridedSlice SRow ![0, 0] x2 (by decide)) (by decide)
def dstVec (x2 : IVec SIdx 32) : IVec SVec 32 :=
  shapeCast SVec (extractStridedSlice SRow ![1, 0] x2 (by decide)) (by decide)

/-- The sources, a negative one wrapped by adding 50000, as a column. -/
def srcCol (x2 : IVec SIdx 32) : IVec SCol 32 :=
  broadcastInDim SCol ![0] (by decide)
    (select (cmpi .slt (srcVec x2) (broadcastInDim SVec ![] (by decide) (constantI S0 32 0#32)))
      (addi (srcVec x2) (broadcastInDim SVec ![] (by decide) (constantI S0 32 50000#32))) (srcVec x2))

/-- The destinations as a column. -/
def dstCol (x2 : IVec SIdx 32) : IVec SCol 32 := broadcastInDim SCol ![0] (by decide) (dstVec x2)

/-- The destinations with a dropped edge's replaced by 50000, as a column. -/
def dstMaskedCol (x2 : IVec SIdx 32) (x3 : IVec SVec 1) : IVec SCol 32 :=
  broadcastInDim SCol ![0] (by decide)
    (select x3 (dstVec x2) (broadcastInDim SVec ![] (by decide) (constantI S0 32 50000#32)))

theorem col_idx (e : Fin 800000) :
    ∀ a : Fin 1, ((ix1 e : SVec.Idx) a).val = if SVec.size a = 1 then 0 else ((ix2 e (0 : Fin 1) : SCol.Idx) ((![0] : Fin 1 → Fin 2) a)).val := fun a =>
  match a with
  | ⟨0, _⟩ => by show e.val = if (800000 : Nat) = 1 then 0 else e.val; rw [if_neg (by decide)]

theorem dstCol_apply (x2 : IVec SIdx 32) (e : Fin 800000) : dstCol x2 (ix2 e (0 : Fin 1)) = dstVec x2 (ix1 e) := by
  unfold dstCol
  generalize dstVec x2 = y
  exact broadcastInDim_apply _ (by decide) y (ix2 e (0 : Fin 1)) (ix1 e) (col_idx e)

theorem dstMaskedCol_apply (x2 : IVec SIdx 32) (x3 : IVec SVec 1) (e : Fin 800000) :
    dstMaskedCol x2 x3 (ix2 e (0 : Fin 1)) = Scalar.select (x3 (ix1 e)) (dstVec x2 (ix1 e)) 50000#32 := by
  unfold dstMaskedCol
  generalize hy : select x3 (dstVec x2) (broadcastInDim SVec ![] (by decide) (constantI S0 32 50000#32)) = y
  rw [broadcastInDim_apply _ (by decide) y (ix2 e (0 : Fin 1)) (ix1 e) (col_idx e), ← hy]
  rfl

/-- The node an edge's source names: the wrapped word, read signed, clamped into the table's rows. -/
def srcRow (x2 : IVec SIdx 32) (e : Fin 800000) : Fin 50000 :=
  ⟨min (srcCol x2 (ix2 e (0 : Fin 1))).toInt.toNat (50000 - 1), by omega⟩

/-- Each edge's source row of a 50000-row table. -/
def gathered {α : Type} (x0 : SNodes.Idx → α) (x2 : IVec SIdx 32) : SEdges.Idx → α :=
  Host.gather (rowGatherDims 50000 800000 96 (by decide)) x0 (srcCol x2)

theorem gathered_apply {α : Type} (x0 : SNodes.Idx → α) (x2 : IVec SIdx 32) (e : Fin 800000) (k : Fin 96) :
    gathered x0 x2 (ix2 e k) = x0 (ix2 (srcRow x2 e) k) :=
  rowGather_apply (by decide) (by decide) x0 (srcCol x2) e k

/-- Rows of edge data added into n rows of zeros at a column of words. -/
def aggregate (n : Nat) (hb : S0.BroadcastsInDim ⟨2, ![n, 96]⟩ (![] : Fin 0 → Fin 2))
    (wf : ScatterDims.WF ⟨2, ![n, 96]⟩ SCol SEdges [1] [0] [0] 1)
    (idx : IVec SCol 32) (upd : SEdges.Idx → EReal) : (⟨2, ![n, 96]⟩ : Shape).Idx → EReal :=
  Host.scatterAdd (F := Ideal) (φ := .f32) (rowScatterDims n 800000 96 wf)
    (broadcastInDim ⟨2, ![n, 96]⟩ ![] hb (constant (F := Ideal) S0 .f32 0x00000000#32)) idx upd

/-- Row r of the aggregate: the sum, over the edges whose word is r, of the edge's row. -/
theorem aggregate_apply (n : Nat) (hb : S0.BroadcastsInDim ⟨2, ![n, 96]⟩ (![] : Fin 0 → Fin 2))
    (wf : ScatterDims.WF ⟨2, ![n, 96]⟩ SCol SEdges [1] [0] [0] 1)
    (idx : IVec SCol 32) (upd : SEdges.Idx → EReal) (r : Fin n) (q : Fin 96) :
    aggregate n hb wf idx upd (ix2 r q)
      = 0 + ∑ e : Fin 800000, if (idx (ix2 e (0 : Fin 1))).toInt = (r.val : Int) then upd (ix2 e q) else 0 := by
  unfold aggregate
  rw [rowScatterAdd_apply]
  congr 1
  show Ideal.ofBits .f32 0x00000000#32 = 0
  exact Ideal.ofBits_zero_f32

/-- Rows k and 96 + k of the [192, 96] weight matrix: the halves that multiply the gathered row and the edge's
    own features. -/
abbrev wRowX (k : Fin 96) : Fin 192 := ⟨k.val, by omega⟩
abbrev wRowE (k : Fin 96) : Fin 192 := ⟨96 + k.val, by omega⟩

/-- A sum over the 192 joined columns is the sum over the first 96 plus the sum over the last 96. -/
theorem sum_split {M : Type} [AddCommMonoid M] (f : Fin 192 → M) :
    ∑ k : Fin 192, f k = (∑ k : Fin 96, f (wRowX k)) + ∑ k : Fin 96, f (wRowE k) := by
  show ∑ k : Fin (96 + 96), f k = _
  rw [Fin.sum_univ_add]
  rfl

end Cert.Edges

end
-- ==== Proof.KernelHost.lean ====
/-
  The arrays the projection kernel's region finds, as functions of the program's arguments, at the ideal instance.

  Before the region the program aggregates twice over the edges into 50001 rows of zeros, at the destination
  column that sends a dropped edge to row 50000: once the gathered node-feature rows (the node table's change of
  float format and back is the identity here), once the edge features. It also cuts the weight matrix into its
  two [96, 96] halves. So, for a row r below 50001 and a column k:
    first aggregate [r, k]  = sum over edges e whose masked destination is r of nodes[src e, k],
    second aggregate [r, k] = sum over the same edges of edge_features[e, k],
    first half [k, q] = W[k, q],  second half [k, q] = W[96 + k, q].
-/
import proofs.«425643_j19731079758632_3_alg».proof.Proof.Gen.KernelIdeal.Frame
import proofs.«425643_j19731079758632_3_alg».proof.Proof.Edges
import Idealize.ShloMosaic.Lib.StableHlo.Run

noncomputable section

open scoped BigOperators

namespace Cert.KernelIdeal.HostSide

open Cert.KernelIdeal Cert.KernelIdeal.Gen Cert.Edges
open Idealize.ShloMosaic Idealize.ShloMosaic.TcCoe Idealize.ShloMosaic.ValueIdx Idealize.SL.Sem Idealize.ShloMosaic.StableHlo

variable (m : (ℓ : Loc nD τ sig) → Buf (Elt Ideal) ℓ)

/-- The arguments on core c. -/
abbrev nodes (c : Dev nD) : SNodes.Idx → EReal := m ((c : Thread nD τ).loc main_arg0)
abbrev efeat (c : Dev nD) : SEdges.Idx → EReal := m ((c : Thread nD τ).loc main_arg1)
abbrev eidx (c : Dev nD) : IVec SIdx 32 := m ((c : Thread nD τ).loc main_arg2)
abbrev emask (c : Dev nD) : IVec SVec 1 := m ((c : Thread nD τ).loc main_arg3)
abbrev wmat (c : Dev nD) : (⟨2, ![192, 96]⟩ : Shape).Idx → EReal := m ((c : Thread nD τ).loc main_arg4)

set_option maxHeartbeats 2000000 in
theorem V_aggX (c : Dev nD) : (V m c (Pipeline.arrRef spec0 0) : S50001x96.Idx → EReal)
    = aggregate 50001 (by decide) (by decide) (dstMaskedCol (eidx m c) (emask m c)) (gathered (nodes m c) (eidx m c)) := by
  show (V m c main_v16 : _) = _
  dsimp only [V]
  simp only [hostOps0, hostOps0_1, hostOps0_2, List.flatten_cons, List.flatten_nil, List.append_nil, List.cons_append,
    List.nil_append]
  after_results
  rfl

set_option maxHeartbeats 2000000 in
theorem V_aggE (c : Dev nD) : (V m c (Pipeline.arrRef spec0 1) : S50001x96.Idx → EReal)
    = aggregate 50001 (by decide) (by decide) (dstMaskedCol (eidx m c) (emask m c)) (efeat m c) := by
  show (V m c main_v19 : _) = _
  dsimp only [V]
  simp only [hostOps0, hostOps0_1, hostOps0_2, List.flatten_cons, List.flatten_nil, List.append_nil, List.cons_append,
    List.nil_append]
  after_results
  rfl

set_option maxHeartbeats 2000000 in
theorem V_wX (c : Dev nD) : (V m c (Pipeline.arrRef spec0 2) : S96x96.Idx → EReal)
    = extractStridedSlice S96x96 ![0, 0] (wmat m c) slices_S192x96_S96x96_0_0 := by
  show (V m c main_v20 : _) = _
  dsimp only [V]
  simp only [hostOps0, hostOps0_1, hostOps0_2, List.flatten_cons, List.flatten_nil, List.append_nil, List.cons_append,
    List.nil_append]
  after_results

set_option maxHeartbeats 2000000 in
theorem V_wE (c : Dev nD) : (V m c (Pipeline.arrRef spec0 3) : S96x96.Idx → EReal)
    = extractStridedSlice S96x96 ![96, 0] (wmat m c) slices_S192x96_S96x96_96_0 := by
  show (V m c main_v21 : _) = _
  dsimp only [V]
  simp only [hostOps0, hostOps0_1, hostOps0_2, List.flatten_cons, List.flatten_nil, List.append_nil, List.cons_append,
    List.nil_append]
  after_results

/-- The word an edge is aggregated at: its destination if the mask keeps it, 50000 otherwise. -/
abbrev maskedDst (c : Dev nD) (e : Fin 800000) : BitVec 32 :=
  Scalar.select (emask m c (ix1 e)) (dstVec (eidx m c) (ix1 e)) 50000#32

theorem aggX_apply (c : Dev nD) (r : Fin 50001) (k : Fin 96) :
    V m c (Pipeline.arrRef spec0 0) (ix2 r k)
      = 0 + ∑ e : Fin 800000, if (maskedDst m c e).toInt = (r.val : Int) then nodes m c (ix2 (srcRow (eidx m c) e) k) else 0 := by
  rw [V_aggX, aggregate_apply]
  simp only [dstMaskedCol_apply, gathered_apply]

theorem aggE_apply (c : Dev nD) (r : Fin 50001) (k : Fin 96) :
    V m c (Pipeline.arrRef spec0 1) (ix2 r k)
      = 0 + ∑ e : Fin 800000, if (maskedDst m c e).toInt = (r.val : Int) then efeat m c (ix2 e k) else 0 := by
  rw [V_aggE, aggregate_apply]
  simp only [dstMaskedCol_apply]

theorem wX_apply (c : Dev nD) (k q : Fin 96) : V m c (Pipeline.arrRef spec0 2) (ix2 k q) = wmat m c (ix2 (wRowX k) q) := by
  rw [V_wX]
  exact extractStridedSlice_apply ![0, 0] (wmat m c) slices_S192x96_S96x96_0_0 (ix2 k q) (ix2 (wRowX k) q) (fun a => match a with
    | ⟨0, _⟩ => by show k.val = 0 + k.val; omega
    | ⟨1, _⟩ => by show q.val = 0 + q.val; omega)

theorem wE_apply (c : Dev nD) (k q : Fin 96) : V m c (Pipeline.arrRef spec0 3) (ix2 k q) = wmat m c (ix2 (wRowE k) q) := by
  rw [V_wE]
  exact extractStridedSlice_apply ![96, 0] (wmat m c) slices_S192x96_S96x96_96_0 (ix2 k q) (ix2 (wRowE k) q) (fun a => match a with
    | ⟨0, _⟩ => by show 96 + k.val = 96 + k.val; omega
    | ⟨1, _⟩ => by show q.val = 0 + q.val; omega)

end Cert.KernelIdeal.HostSide

end
-- ==== Proof.RefRows.lean ====
/-
  The reference program read row by row: each edge's message is its gathered source row joined with its own
  features and multiplied into the weight matrix, so at output column o it is
      sum over k < 96 of nodes[src e, k] * W[k, o]  +  sum over k < 96 of edge_features[e, k] * W[96 + k, o];
  the message is multiplied by the mask bit as a float (1 or 0), and node i's row of the result is the sum of the
  masked messages of the edges whose destination word is i.
-/
import proofs.«425643_j19731079758632_3_alg».proof.Proof.Gen.ReferenceIdeal.Run
import proofs.«425643_j19731079758632_3_alg».proof.Proof.Gen.ReferenceIdeal.Read
import proofs.«425643_j19731079758632_3_alg».proof.Proof.Edges

noncomputable section

open scoped BigOperators

namespace Cert.ReferenceIdeal.Rows

open Cert.ReferenceIdeal Cert.ReferenceIdeal.Gen Cert.ReferenceIdeal.Read Cert.Edges
open Idealize.ShloMosaic Idealize.ShloMosaic.ValueIdx

variable (x0 : SNodes.Idx → EReal) (x1 : SEdges.Idx → EReal) (x2 : IVec SIdx 32) (x3 : IVec SVec 1)
  (x4 : (⟨2, ![192, 96]⟩ : Shape).Idx → EReal)

/-- One edge's dot products with the two halves of a weight column. -/
abbrev message (e : Fin 800000) (o : Fin 96) : EReal :=
  (∑ k : Fin 96, x0 (ix2 (srcRow x2 e) k) * x4 (ix2 (wRowX k) o)) + ∑ k : Fin 96, x1 (ix2 e k) * x4 (ix2 (wRowE k) o)

/-- The joined row of edge e: its first 96 entries are the gathered source row, -/
theorem joined_left (e : Fin 800000) (o : Fin 96) (k : Fin 96) :
    val_main_v11 (F := Ideal) x0 x1 x2 (lidx_main_v12 (ix2 e o) (wRowX k)) = x0 (ix2 (srcRow x2 e) k) := by
  unfold val_main_v11
  exact (concatenate_apply_piece (t := S800000x192) (1 : Fin 2) ([⟨S800000x96, val_main_v10 (F := Ideal) x0 x2⟩, ⟨S800000x96, x1⟩] : List ((s : Shape) × (s.Idx → EReal)))
    concatenates_S800000x96_S800000x96_S800000x192_d1 (lidx_main_v12 (ix2 e o) (wRowX k)) 0 (Nat.zero_lt_succ _) S800000x96
    (val_main_v10 (F := Ideal) x0 x2) rfl rfl 0 rfl (ix2 e k)
    (fun b hb => match b with
      | ⟨0, _⟩ => rfl
      | ⟨1, _⟩ => absurd rfl hb)
    (by show 0 + k.val = k.val; omega)).trans (gathered_apply x0 x2 e k)

/-- and its last 96 the edge's own features. -/
theorem joined_right (e : Fin 800000) (o : Fin 96) (k : Fin 96) :
    val_main_v11 (F := Ideal) x0 x1 x2 (lidx_main_v12 (ix2 e o) (wRowE k)) = x1 (ix2 e k) := by
  unfold val_main_v11
  exact concatenate_apply_piece (t := S800000x192) (1 : Fin 2) ([⟨S800000x96, val_main_v10 (F := Ideal) x0 x2⟩, ⟨S800000x96, x1⟩] : List ((s : Shape) × (s.Idx → EReal)))
    concatenates_S800000x96_S800000x96_S800000x192_d1 (lidx_main_v12 (ix2 e o) (wRowE k)) 1 (Nat.succ_lt_succ (Nat.zero_lt_succ _)) S800000x96
    x1 rfl rfl 96 rfl (ix2 e k)
    (fun b hb => match b with
      | ⟨0, _⟩ => rfl
      | ⟨1, _⟩ => absurd rfl hb)
    (by show 96 + k.val = 96 + k.val; omega)

theorem weight_idx (e : Fin 800000) (o : Fin 96) (k : Fin 192) : ridx_main_v12 (ix2 e o) k = ix2 k o :=
  funext fun a => match a with
    | ⟨0, _⟩ => rfl
    | ⟨1, _⟩ => rfl

/-- An edge's message at column o. -/
theorem message_apply (e : Fin 800000) (o : Fin 96) :
    val_main_v12 (F := Ideal) x0 x1 x2 x4 (ix2 e o) = message x0 x1 x2 x4 e o := by
  rw [val_main_v12_apply, sum_split]
  simp only [joined_left, joined_right, weight_idx]

theorem mask_idx (e : Fin 800000) (o : Fin 96) : idx_main_v13 (idx_main_v15 (ix2 e o)) = ix1 e :=
  funext fun a => match a with
    | ⟨0, _⟩ => rfl

/-- The masked message: the message times the mask bit read as a number. -/
theorem masked_apply (e : Fin 800000) (o : Fin 96) :
    val_main_v16 (F := Ideal) x0 x1 x2 x3 x4 (ix2 e o)
      = message x0 x1 x2 x4 e o * (((x3 (ix1 e)).toNat : ℝ) : EReal) := by
  rw [val_main_v16_apply, message_apply, val_main_v15_apply, val_main_v14_apply, val_main_v13_apply, mask_idx]
  rfl

/-- The reference's result is the aggregate of the masked messages at the destinations. -/
theorem result_eq_aggregate :
    val_main_v19 (F := Ideal) x0 x1 x2 x3 x4
      = aggregate 50000 (by decide) (by decide) (dstCol x2) (val_main_v16 (F := Ideal) x0 x1 x2 x3 x4) := rfl

/-- NODE i's ROW OF THE REFERENCE'S RESULT, at column o. -/
theorem result_apply (i : Fin 50000) (o : Fin 96) :
    val_main_v19 (F := Ideal) x0 x1 x2 x3 x4 (ix2 i o)
      = 0 + ∑ e : Fin 800000, if (dstVec x2 (ix1 e)).toInt = (i.val : Int)
          then message x0 x1 x2 x4 e o * (((x3 (ix1 e)).toNat : ℝ) : EReal) else 0 := by
  rw [result_eq_aggregate, aggregate_apply]
  simp only [dstCol_apply, masked_apply]

end Cert.ReferenceIdeal.Rows

end
-- ==== Proof.SumLaw.lean ====
/-
  Aggregating then projecting against projecting then aggregating, over finite reals.

  Edges e carry two rows of reals, x e and y e (the gathered source row and the edge's own features), a flag
  keep e (the edge survives the dropout mask) and a flag hit e (its destination is the node in question). With
  weight columns u and v:

    sum over k of (sum over kept edges hitting the node of x e k) * u k
      + sum over k of (sum over kept edges hitting the node of y e k) * v k
    = sum over edges hitting the node of (x e . u + y e . v) * (1 if kept, else 0).

  Both sides are finite sums of products of reals, so the identity is distributivity and an exchange of the two
  summations. It is stated on the extended reals, where the two programs compute, with every entry the image of
  a real: there the sums and products are the images of the real ones (coe_sum), and the identity is the real one.
-/
import Idealize.ShloMosaic.PureOps.Ideal

noncomputable section

open scoped BigOperators

namespace Cert.SumLaw

/-- The image in the extended reals of a finite sum of reals is the sum of the images. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A guarded image is the image of the guarded real. -/
theorem ite_coe (p : Prop) [Decidable p] (a : ℝ) : (if p then (a : EReal) else 0) = ((if p then a else 0 : ℝ) : EReal) := by
  split <;> simp

variable {ι κ : Type} [Fintype ι] [Fintype κ]

/-- A guarded sum of images, from zero, is the image of the guarded real sum. -/
theorem zero_add_sum_ite (p : ι → Prop) [DecidablePred p] (a : ι → ℝ) :
    (0 : EReal) + ∑ e, (if p e then (a e : EReal) else 0) = ((∑ e, if p e then a e else 0 : ℝ) : EReal) := by
  rw [zero_add, coe_sum]
  exact Finset.sum_congr rfl fun e _ => ite_coe _ _

/-- A dot product of images is the image of the real dot product. -/
theorem dot_coe (a b : κ → ℝ) : ∑ k, (a k : EReal) * (b k : EReal) = ((∑ k, a k * b k : ℝ) : EReal) := by
  rw [coe_sum]
  exact Finset.sum_congr rfl fun k _ => (EReal.coe_mul _ _).symm

/-- Over the reals: aggregate one family of rows over the selected edges, then take the dot product with a weight
    column; or take each selected edge's dot product, then aggregate. -/
theorem real_exchange (p : ι → Prop) [DecidablePred p] (z : ι → κ → ℝ) (t : κ → ℝ) :
    ∑ k, (∑ e, if p e then z e k else 0) * t k = ∑ e, if p e then ∑ k, z e k * t k else 0 := by
  simp only [Finset.sum_mul]
  rw [Finset.sum_comm]
  refine Finset.sum_congr rfl fun e _ => ?_
  by_cases h : p e
  · simp only [h, if_true]
  · simp only [h, if_false, zero_mul, Finset.sum_const_zero]

/-- THE LAW, on the extended reals at images of reals. -/
theorem aggregate_then_project (keep hit : ι → Prop) [DecidablePred keep] [DecidablePred hit]
    (x y : ι → κ → ℝ) (u v : κ → ℝ) :
    (∑ k, ((0 : EReal) + ∑ e, (if keep e ∧ hit e then (x e k : EReal) else 0)) * (u k : EReal))
      + (∑ k, ((0 : EReal) + ∑ e, (if keep e ∧ hit e then (y e k : EReal) else 0)) * (v k : EReal))
    = (0 : EReal) + ∑ e, (if hit e then
        ((∑ k, (x e k : EReal) * (u k : EReal)) + ∑ k, (y e k : EReal) * (v k : EReal)) * (((if keep e then 1 else 0 : ℝ)) : EReal)
        else 0) := by
  -- the left side as the image of a real
  have hl : ∀ (z : ι → κ → ℝ) (t : κ → ℝ),
      (∑ k, ((0 : EReal) + ∑ e, (if keep e ∧ hit e then (z e k : EReal) else 0)) * (t k : EReal))
        = ((∑ e, if keep e ∧ hit e then ∑ k, z e k * t k else 0 : ℝ) : EReal) := by
    intro z t
    rw [← real_exchange, coe_sum]
    refine Finset.sum_congr rfl fun k _ => ?_
    rw [zero_add_sum_ite, EReal.coe_mul]
  -- the right side as the image of a real
  have hr : ∀ e, (if hit e then
        ((∑ k, (x e k : EReal) * (u k : EReal)) + ∑ k, (y e k : EReal) * (v k : EReal)) * (((if keep e then 1 else 0 : ℝ)) : EReal)
        else 0)
      = ((if hit e then ((∑ k, x e k * u k) + ∑ k, y e k * v k) * (if keep e then 1 else 0) else 0 : ℝ) : EReal) := by
    intro e
    rw [dot_coe, dot_coe, ← EReal.coe_add, ← EReal.coe_mul]
    exact ite_coe _ _
  rw [hl, hl, ← EReal.coe_add]
  simp only [hr]
  rw [zero_add, ← coe_sum, ← Finset.sum_add_distrib]
  congr 1
  refine Finset.sum_congr rfl fun e _ => ?_
  by_cases hk : keep e <;> by_cases hh : hit e <;> simp [hk, hh]

end Cert.SumLaw

end
-- ==== Proof.Finite.lean ====
/-
  From the precondition to real entries. The precondition says that every entry x of the node features, the
  edge features and the weight matrix satisfies |x| < +infinity on the extended reals; such an x is neither
  infinity, so it is the image of a real number.
-/
import proofs.«425643_j19731079758632_3_alg».proof.Pre_finite_inputs
import Idealize.ShloMosaic.PureOps.Ideal
import Idealize.ShloMosaic.Lib.ReduceAll
import Idealize.ShloMosaic.Lib.Affine
import Idealize.ShloMosaic.Lib.ValueIdx

noncomputable section

namespace Cert.Finite

open Idealize.ShloMosaic Cert.Pre_finite_inputs

instance : Subsingleton S_.Idx := ⟨fun a b => funext fun d => d.elim0⟩

/-- An extended real whose absolute value is below the value of the word 0x7F800000 (+infinity) is a real. -/
theorem real_of_abs_lt (x : EReal)
    (h : Scalar.cmpf (F := Ideal) (φ := .f32) .olt (FloatOps.hostAbsf x) (FloatOps.ofBits .f32 0x7F800000#32) = 1#1) :
    ∃ r : ℝ, x = (r : EReal) := by
  induction x using EReal.rec with
  | bot =>
    exfalso; revert h
    have e : FloatOps.absf (F := Ideal) (φ := .f32) (⊥ : EReal) = (⊤ : EReal) := by
      show max (⊥ : EReal) (-⊥) = ⊤
      simp
    simp [Ideal.cmp, Ideal.ofBits, Ideal.ieee, e]
  | coe r => exact ⟨r, rfl⟩
  | top =>
    exfalso; revert h
    have e : FloatOps.absf (F := Ideal) (φ := .f32) (⊤ : EReal) = (⊤ : EReal) := by
      show max (⊤ : EReal) (-⊤) = ⊤
      simp
    simp [Ideal.cmp, Ideal.ofBits, Ideal.ieee, e]

variable [Facts]
open Facts

/-- The precondition at the ideal instance gives, for each of the three float arguments, an array of reals whose
    images are its entries. -/
theorem reals_of_pre (x0 : FVec Ideal S50000x96 .f32) (x1 : FVec Ideal S800000x96 .f32) (x2 : IVec S2x800000 32)
    (x3 : IVec S800000 1) (x4 : FVec Ideal S192x96 .f32)
    (h : fn (F := Ideal) x0 x1 x2 x3 x4 = fun _ => 1#1) :
    (∃ r0 : S50000x96.Idx → ℝ, x0 = fun i => (r0 i : EReal))
    ∧ (∃ r1 : S800000x96.Idx → ℝ, x1 = fun i => (r1 i : EReal))
    ∧ (∃ r4 : S192x96.Idx → ℝ, x4 = fun i => (r4 i : EReal)) := by
  have h0 := congrFun h ValueIdx.ix0
  dsimp only [fn] at h0
  obtain ⟨h01, h4⟩ := IntOp.andi_eq_one.1 h0
  obtain ⟨ha, hb⟩ := IntOp.andi_eq_one.1 h01
  have e0 : ∀ i, ∃ r : ℝ, x0 i = (r : EReal) := fun i =>
    real_of_abs_lt (x0 i) (Host.reduce_andi_all _ _ _ _ _ ha i)
  have e1 : ∀ i, ∃ r : ℝ, x1 i = (r : EReal) := fun i =>
    real_of_abs_lt (x1 i) (Host.reduce_andi_all _ _ _ _ _ hb i)
  have e4 : ∀ i, ∃ r : ℝ, x4 i = (r : EReal) := fun i =>
    real_of_abs_lt (x4 i) (Host.reduce_andi_all _ _ _ _ _ h4 i)
  choose r0 hr0 using e0
  choose r1 hr1 using e1
  choose r4 hr4 using e4
  exact ⟨⟨r0, funext hr0⟩, ⟨r1, funext hr1⟩, ⟨r4, funext hr4⟩⟩

end Cert.Finite

end
-- ==== Proof.Bridge.lean ====
/-
  The two results are one function of the arguments.

  Node i's row of the reference's result is the sum, over the edges whose destination is i, of the edge's message
  times its mask bit; the kernel's is the row of the summed gathered rows (over the kept edges whose destination is
  i) into the first weight half plus the row of the summed edge features into the second. For a node i below 50000 an
  edge's masked destination is i exactly when the edge is kept and its destination is i (the sink row's number,
  50000, is no node). With every entry of the three float arguments a real (the precondition), the two are equal
  by distributivity and an exchange of the two summations (Cert.SumLaw.aggregate_then_project).
-/
import proofs.«425643_j19731079758632_3_alg».proof.Proof.KernelValue
import proofs.«425643_j19731079758632_3_alg».proof.Proof.KernelHost
import proofs.«425643_j19731079758632_3_alg».proof.Proof.RefRows
import proofs.«425643_j19731079758632_3_alg».proof.Proof.SumLaw
import proofs.«425643_j19731079758632_3_alg».proof.Proof.Finite
import proofs.«425643_j19731079758632_3_alg».proof.Proof.Gen.Pre_finite_inputs

noncomputable section

open scoped BigOperators

namespace Cert.Bridge

open Cert.KernelIdeal Cert.KernelIdeal.Gen Cert.KernelIdeal.Val Cert.KernelIdeal.HostSide Cert.Edges
open Idealize.ShloMosaic Idealize.ShloMosaic.TcCoe Idealize.ShloMosaic.ValueIdx Idealize.SL.Sem

/-- A mask bit read as a number is 1 where the bit is set and 0 elsewhere. -/
theorem mask_num (b : BitVec 1) : ((b.toNat : ℝ)) = if b = 1 then 1 else 0 := by
  rcases (by decide : ∀ b : BitVec 1, b = 0 ∨ b = 1) b with rfl | rfl <;> simp

/-- For a node r (below 50000): an edge's masked destination is r exactly when the edge is kept and its
    destination is r. -/
theorem masked_hit (b : BitVec 1) (d : BitVec 32) (r : Fin 50000) :
    (Scalar.select b d 50000#32).toInt = (r.val : Int) ↔ (b = 1 ∧ d.toInt = (r.val : Int)) := by
  have hr := r.isLt
  have h5 : (50000#32 : BitVec 32).toInt = 50000 := by decide
  unfold Scalar.select
  by_cases hb : b = 1
  · rw [if_pos hb]; exact ⟨fun h => ⟨hb, h⟩, fun h => h.2⟩
  · rw [if_neg hb, h5]
    exact ⟨fun h => by omega, fun h => absurd h.1 hb⟩

/-- THE TWO RESULTS AGREE, for any four arrays that are the two aggregates over the masked destinations and the two
    halves of the weight matrix. -/
theorem result_eq_of (x0 : SNodes.Idx → EReal) (x1 : SEdges.Idx → EReal) (x2 : IVec SIdx 32) (x3 : IVec SVec 1)
    (x4 : (⟨2, ![192, 96]⟩ : Shape).Idx → EReal)
    (hpre : Cert.Pre_finite_inputs.fn (F := Ideal) x0 x1 x2 x3 x4 = fun _ => 1#1)
    (A0 A1 : S50001x96.Idx → EReal) (A2 A3 : S96x96.Idx → EReal)
    (hA0 : ∀ (r : Fin 50001) (k : Fin 96), A0 (ix2 r k)
      = 0 + ∑ e : Fin 800000, if (Scalar.select (x3 (ix1 e)) (dstVec x2 (ix1 e)) 50000#32).toInt = (r.val : Int)
          then x0 (ix2 (srcRow x2 e) k) else 0)
    (hA1 : ∀ (r : Fin 50001) (k : Fin 96), A1 (ix2 r k)
      = 0 + ∑ e : Fin 800000, if (Scalar.select (x3 (ix1 e)) (dstVec x2 (ix1 e)) 50000#32).toInt = (r.val : Int)
          then x1 (ix2 e k) else 0)
    (hA2 : ∀ (k q : Fin 96), A2 (ix2 k q) = x4 (ix2 (wRowX k) q))
    (hA3 : ∀ (k q : Fin 96), A3 (ix2 k q) = x4 (ix2 (wRowE k) q)) :
    Cert.ReferenceIdeal.Read.val_main_v19 (F := Ideal) x0 x1 x2 x3 x4 = outOf A0 A1 A2 A3 := by
  obtain ⟨⟨r0, rfl⟩, ⟨r1, rfl⟩, ⟨r4, rfl⟩⟩ := Cert.Finite.reals_of_pre _ _ _ _ _ hpre
  funext i
  obtain ⟨r, o, rfl⟩ : ∃ (r : Fin 50000) (o : Fin 96), i = (ix2 r o : S50000x96.Idx) := ⟨i 0, i 1, eq_ix2 (n0 := 50000) (n1 := 96) i⟩
  rw [Cert.ReferenceIdeal.Rows.result_apply, outOf_apply]
  simp only [hA0, hA1, hA2, hA3]
  -- the law, at this node and this output column
  have key := Cert.SumLaw.aggregate_then_project (ι := Fin 800000) (κ := Fin 96)
    (fun e => x3 (ix1 e) = 1) (fun e => (dstVec x2 (ix1 e)).toInt = (r.val : Int))
    (fun e k => r0 (ix2 (srcRow x2 e) k)) (fun e k => r1 (ix2 e k))
    (fun k => r4 (ix2 (wRowX k) o)) (fun k => r4 (ix2 (wRowE k) o))
  refine Eq.trans ?_ (key.symm.trans ?_)
  · -- the reference's side: the mask bit as a number
    refine congrArg (fun s => (0 : EReal) + s) (Finset.sum_congr rfl fun e _ => ?_)
    rw [mask_num]
  · -- the kernel's side: the masked destination is the node exactly for a kept edge whose destination it is
    have hsel : ∀ e : Fin 800000, ((Scalar.select (x3 (ix1 e)) (dstVec x2 (ix1 e)) 50000#32).toInt = ((up r).val : Int))
        ↔ (x3 (ix1 e) = 1 ∧ (dstVec x2 (ix1 e)).toInt = (r.val : Int)) := fun e => masked_hit _ _ r
    refine congrArg₂ (fun a b : EReal => a + b) (Finset.sum_congr rfl fun k _ => ?_) (Finset.sum_congr rfl fun k _ => ?_)
    · refine congrArg (fun s => ((0 : EReal) + s) * ((r4 (ix2 (wRowX k) o) : ℝ) : EReal)) (Finset.sum_congr rfl fun e _ => ?_)
      exact if_congr (hsel e).symm rfl rfl
    · refine congrArg (fun s => ((0 : EReal) + s) * ((r4 (ix2 (wRowE k) o) : ℝ) : EReal)) (Finset.sum_congr rfl fun e _ => ?_)
      exact if_congr (hsel e).symm rfl rfl

/-- The reference's result on the kernel program's arguments is the kernel's result function of what its region
    finds. -/
theorem result_eq (m : (ℓ : Loc nD τ sig) → Buf (Elt Ideal) ℓ) (c : Dev nD)
    (hpre : Cert.Pre_finite_inputs.fn (F := Ideal) (nodes m c) (efeat m c) (eidx m c) (emask m c) (wmat m c) = fun _ => 1#1) :
    Cert.ReferenceIdeal.Read.val_main_v19 (F := Ideal) (nodes m c) (efeat m c) (eidx m c) (emask m c) (wmat m c) = result m c :=
  result_eq_of _ _ _ _ _ hpre _ _ _ _ (aggX_apply m c) (aggE_apply m c) (wX_apply m c) (wE_apply m c)

end Cert.Bridge

end
-- ==== Proof.lean ====
/-
  A message-passing layer over a graph of 50000 nodes and 800000 edges, with 96 features per node and per edge.

  The reference gathers each edge's source row, joins it with the edge's own features, multiplies the joined row
  into a [192, 96] weight matrix, zeroes the message of an edge the dropout mask drops, and sums the messages into
  their destination nodes' rows. The kernel's program sums FIRST — the gathered rows and the edge features, each
  into 50001 rows, a dropped edge sent to the extra last row — and then multiplies: a Pallas kernel over 25 blocks
  of 2000 rows takes each block of the two sums into the two [96, 96] halves of the weight matrix and adds the two
  products; the extra row is read by no block.

  Over the reals the two are equal because the matrix product distributes over the sum of the rows that reach a
  node: sum over edges of (row . W) = (sum over edges of row) . W, for both halves. On the extended reals that law
  needs every entry finite, which is the precondition; the changes of float format are the identity there.

  The claims: the two kernel programs and the reference run to the end and leave their arguments unchanged
  (the kernel's body and launch: Body*, the reference's run read back); the idealization rewrote nothing; and the
  two idealized programs end with equal results (KernelValue reads the kernel's result array off its run, KernelHost
  the arrays it is launched on, RefRows the reference's result, and Bridge joins them by SumLaw).
-/
import proofs.«425643_j19731079758632_3_alg».proof.Defs
import proofs.«425643_j19731079758632_3_alg».proof.Proof.Gen.Kernel
import proofs.«425643_j19731079758632_3_alg».proof.Proof.Gen.KernelIdeal
import proofs.«425643_j19731079758632_3_alg».proof.Proof.Gen.ReferenceIdeal
import proofs.«425643_j19731079758632_3_alg».proof.Proof.Gen.Pre_finite_inputs
import proofs.«425643_j19731079758632_3_alg».proof.Proof.Gen.ReferenceIdeal.Run
import proofs.«425643_j19731079758632_3_alg».proof.Proof.Gen.ReferenceIdeal.Read
import proofs.«425643_j19731079758632_3_alg».proof.Proof.BodyBits
import proofs.«425643_j19731079758632_3_alg».proof.Proof.BodyIdeal
import proofs.«425643_j19731079758632_3_alg».proof.Proof.KernelValue
import proofs.«425643_j19731079758632_3_alg».proof.Proof.Bridge
import Idealize.ShloMosaic.Adequacy
import Idealize.ShloMosaic.Init

noncomputable section

namespace Cert.Proof

open Idealize.ShloMosaic Idealize.SL.Sem

/-- The word-level kernel program runs and leaves its arguments unchanged. -/
theorem frame_kernel : Cert.frame_Kernel := fun m ρ _ => Cert.Kernel.Body.frame (F := Bits) m ρ

/-- So does the idealized kernel program. -/
theorem frame_kernelIdeal : Cert.frame_KernelIdeal := fun m ρ _ => Cert.KernelIdeal.Body.frame (F := Ideal) m ρ

/-- So does the reference: its run read back, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both idealized programs end, with the result array the same function
    of the arguments: the kernel's is read off its run, the reference's off its own, and under the precondition the
    two functions agree index by index. -/
theorem algebraic : Cert.algebraic_KernelIdeal_ReferenceIdeal := by
  intro m ρ m' ρ' hpre hagree
  refine ⟨fun c => Cert.KernelIdeal.Val.result m c, Cert.KernelIdeal.Val.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v19_eq, (hagree c).1, (hagree c).2.1, (hagree c).2.2.1, (hagree c).2.2.2.1,
    (hagree c).2.2.2.2]
  exact Cert.Bridge.result_eq m c (hpre c)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
